-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel

variable [Facts]

def fn {F : FTy → Type} [FloatOps F] (main_arg0 : FVec F S32x4096x512 .f32) (main_arg1 : FVec F S32x4096x512 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S32x4096x512 .f32 := Host.absf main_arg1
  let main_cst_0 : FVec F S_ .f32 := constant S_ .f32 0x7F800000#32
  let main_v5 : FVec F S32x4096x512 .f32 := broadcastInDim S32x4096x512 ![] bcast_S_S32x4096x512 main_cst_0
  let main_v6 : IVec S32x4096x512 1 := cmpf .olt main_v4 main_v5
  let main_c_1 : IVec S_ 1 := constantI S_ 1 1#1
  let main_v7 : IVec S_ 1 := (fun x v => Host.reduce IntOp.andi x v reducesTo_S32x4096x512_S_d0_1_2 h_S_) main_v6 main_c_1
  let main_v8 : IVec S_ 1 := andi main_v3 main_v7
  main_v8
-- ==== Kernel.lean ====
abbrev S32x4096x512 : Shape := ⟨3, ![32, 4096, 512]⟩
abbrev S1x1 : Shape := ⟨2, ![1, 1]⟩
abbrev S1x1024x512 : Shape := ⟨3, ![1, 1024, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S512 : Shape := ⟨1, ![512]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S32x4096x512, .f32⟩
  | .hbm, ⟨1, _⟩ => ⟨S32x4096x512, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x1, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  reduces_S1024x512_S512 : S1024x512.Reduces [0] S512
  shapeCasts_S512_S1x512 : S512.ShapeCasts S1x512
  reduces_S1x512_S1 : S1x512.Reduces [1] S1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x4096x512.size a
  hwx0_0 : ∀ i : grid0.Coords, EltTy.bits .f32 = 32 ∨ (Rect.block (s := S32x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S32x4096x512.size a
  hwx0_1 : ∀ i : grid0.Coords, EltTy.bits .f32 = 32 ∨ (Rect.block (s := S32x4096x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x512 : Shape := ⟨3, ![32, 4096, 512]⟩
abbrev S_ : Shape := ⟨0, ![]⟩
abbrev S32x4096 : Shape := ⟨2, ![32, 4096]⟩
abbrev S32x4096x1 : Shape := ⟨3, ![32, 4096, 1]⟩
abbrev S32 : Shape := ⟨1, ![32]⟩
abbrev S32x512 : Shape := ⟨2, ![32, 512]⟩
abbrev S32x1x512 : Shape := ⟨3, ![32, 1, 512]⟩

abbrev nBuf : Space → Nat
  | .hbm => 71
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S32x4096x512, .f32⟩
  | .hbm, ⟨2, _⟩ => ⟨S32x4096x512, .f32⟩
  | .hbm, ⟨3, _⟩ => ⟨S_, .f32⟩
  | .hbm, ⟨4, _⟩ => ⟨S32x4096, .f32⟩
  | .hbm, ⟨5, _⟩ => ⟨S32x4096x1, .f32⟩
  | .hbm, ⟨6, _⟩ => ⟨S32x4096x1, .f32⟩
  | .hbm, ⟨7, _⟩ => ⟨S_, .f32⟩
  | .hbm, ⟨8, _⟩ => ⟨S32x4096x1, .f32⟩
  | .hbm, ⟨9, _⟩ => ⟨S32x4096x1, .f32⟩
  | .hbm, ⟨10, _⟩ => ⟨S32x4096x512, .f32⟩
  | .hbm, ⟨11, _⟩ => ⟨S32x4096x512, .f32⟩
  | .hbm, ⟨12, _⟩ => ⟨S32x4096x512, .f32⟩
  | .hbm, ⟨13, _⟩ => ⟨S_, .f32⟩
  | .hbm, ⟨14, _⟩ => ⟨S32x4096, .f32⟩
  | .hbm, ⟨15, _⟩ => ⟨S32x4096x1, .f32⟩
  | .hbm, ⟨16, _⟩ => ⟨S32x4096x1, .f32⟩
  | .hbm, ⟨17, _⟩ => ⟨S_, .f32⟩
  | .hbm, ⟨18, _⟩ => ⟨S32x4096x1, .f32⟩
  | .hbm, ⟨19, _⟩ => ⟨S32x4096x1, .f32⟩
  | .hbm, ⟨20, _⟩ => ⟨S32x4096x512, .f32⟩
  | .hbm, ⟨21, _⟩ => ⟨S32x4096x512, .f32⟩
  | .hbm, ⟨22, _⟩ => ⟨S32x4096x512, .f32⟩
  | .hbm, ⟨23, _⟩ => ⟨S_, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32x4096x512, .f32⟩
  | .hbm, ⟨32, _⟩ => ⟨S_, .f32⟩
  | .hbm, ⟨33, _⟩ => ⟨S32x512, .f32⟩
  | .hbm, ⟨34, _⟩ => ⟨S32x1x512, .f32⟩
  | .hbm, ⟨35, _⟩ => ⟨S32x1x512, .f32⟩
  | .hbm, ⟨36, _⟩ => ⟨S_, .f32⟩
  | .hbm, ⟨37, _⟩ => ⟨S32x1x512, .f32⟩
  | .hbm, ⟨38, _⟩ => ⟨S32x1x512, .f32⟩
  | .hbm, ⟨39, _⟩ => ⟨S32x4096x512, .f32⟩
  | .hbm, ⟨40, _⟩ => ⟨S32x4096x512, .f32⟩
  | .hbm, ⟨41, _⟩ => ⟨S32x4096x512, .f32⟩
  | .hbm, ⟨42, _⟩ => ⟨S_, .f32⟩
  | .hbm, ⟨43, _⟩ => ⟨S32x512, .f32⟩
  | .hbm, ⟨44, _⟩ => ⟨S32x1x512, .f32⟩
  | .hbm, ⟨45, _⟩ => ⟨S32x1x512, .f32⟩
  | .hbm, ⟨46, _⟩ => ⟨S_, .f32⟩
  | .hbm, ⟨47, _⟩ => ⟨S32x1x512, .f32⟩
  | .hbm, ⟨48, _⟩ => ⟨S32x1x512, .f32⟩
  | .hbm, ⟨49, _⟩ => ⟨S32x4096x512, .f32⟩
  | .hbm, ⟨50, _⟩ => ⟨S32x4096x512, .f32⟩
  | .hbm, ⟨51, _⟩ => ⟨S32x4096x512, .f32⟩
  | .hbm, ⟨52, _⟩ => ⟨S_, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_cst_12 : Ref sig .tc := ⟨.hbm, 57, rfl⟩
abbrev main_v42 : Ref sig .tc := ⟨.hbm, 58, rfl⟩
abbrev main_v43 : Ref sig .tc := ⟨.hbm, 59, rfl⟩
abbrev main_cst_13 : Ref sig .tc := ⟨.hbm, 60, rfl⟩
abbrev main_v44 : Ref sig .tc := ⟨.hbm, 61, rfl⟩
abbrev main_v45 : Ref sig .tc := ⟨.hbm, 62, rfl⟩
abbrev main_cst_14 : Ref sig .tc := ⟨.hbm, 63, rfl⟩
abbrev main_v46 : Ref sig .tc := ⟨.hbm, 64, rfl⟩
abbrev main_cst_15 : Ref sig .tc := ⟨.hbm, 65, rfl⟩
abbrev main_v47 : Ref sig .tc := ⟨.hbm, 66, rfl⟩
abbrev main_v48 : Ref sig .tc := ⟨.hbm, 67, rfl⟩
abbrev main_cst_16 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  reducesTo_S32x4096x512_S32x4096_d2 : S32x4096x512.ReducesTo [2] S32x4096
  h_S_ : 0 < S_.numel
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S32x4096x1_S32x4096x512_0_1_2 : S32x4096x1.BroadcastsInDim S32x4096x512 (![0, 1, 2] : Fin 3 → Fin S32x4096x512.rank)
  reducesTo_S32x4096x512_S32_d1_2 : S32x4096x512.ReducesTo [1, 2] S32
  bcast_S_S32 : S_.BroadcastsInDim S32 (![] : Fin 0 → Fin S32.rank)
  reducesTo_S32x4096x512_S32x512_d1 : S32x4096x512.ReducesTo [1] S32x512
  bcast_S32x512_S32x1x512_0_2 : S32x512.BroadcastsInDim S32x1x512 (![0, 2] : Fin 2 → Fin S32x1x512.rank)
  bcast_S_S32x1x512 : S_.BroadcastsInDim S32x1x512 (![] : Fin 0 → Fin S32x1x512.rank)
  bcast_S32x1x512_S32x4096x512_0_1_2 : S32x1x512.BroadcastsInDim S32x4096x512 (![0, 1, 2] : Fin 3 → Fin S32x4096x512.rank)
  reducesTo_S32_S_d0 : S32.ReducesTo [0] S_

variable [Facts₀]

class Facts : Prop extends Facts₀ where

variable [Facts]
-- ==== Proof.KPieces.lean ====
/-
  What each case of the body leaves in the output's staging buffer and in the three column accumulators, as
  the body's arithmetic of the two input blocks and of what the buffers held.

  The four cases: the very first tile (the total and the accumulators start from zero), a later batch's first
  tile (the accumulators start from zero, the total goes on), a middle tile (everything goes on), and a batch's
  last tile (everything goes on, and the total also gains the batch's column terms, read from the accumulators
  just updated).
-/
import proofs.«173612_j10213432230325_1_alg».proof.Proof.Gen.KernelIdeal.Frame
import Idealize.ShloMosaic.Lib.Pipeline.Value
import Idealize.ShloMosaic.Lib.Tactic

noncomputable section

namespace Cert.KernelIdeal.SplK

open Cert.KernelIdeal Cert.KernelIdeal.Gen
open Idealize.ShloMosaic Idealize.ShloMosaic.TcCoe Idealize.SL.Sem

variable {F : FTy → Type} [FloatOps F]
variable (c : Dev nD) (i : grid0.Coords)
  (arg2 : Memref sig .tc .vmem S1x1024x512 .f32) (harg2 : arg2.IsWhole)
  (arg3 : Memref sig .tc .vmem S1x1024x512 .f32) (harg3 : arg3.IsWhole)
  (arg4 : Memref sig .tc .vmem S1x1 .f32) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1x512 .f32) (harg7 : arg7.IsWhole)

theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle tile: everything goes on from what the buffers held -/

theorem out_B (hc0 : ¬cond0_0 i) (hc1 : ¬cond0_1 i) (hc2 : ¬cond0_2 i)
    (x0 x1 : Vec F S1x1024x512 .f32) (xo2 : Vec F S1x1 .f32) (xs0 xs1 xs2 : Vec F S1x512 .f32) :
    out0_B_2 c i arg2 harg2 arg3 harg3 arg4 harg4 arg5 harg5 arg6 harg6 arg7 harg7 hc0 hc1 hc2 x0 x1 xo2 xs0 xs1 xs2
      = k0_pay14 x0 x1 xo2 := by
  unfold out0_B_2
  rw [View.read_writes_eq_canon _ _ _ (cover0_B_2 c i arg2 harg2 arg3 harg3 arg4 harg4 arg5 harg5 arg6 harg6 arg7 harg7 hc0 hc1 hc2 x0 x1 xo2 xs0 xs1 xs2)]
  unfold kernelRun0_B
  dsimp only
  sl_unfold_words
  rw [View.canon_unit_zero hz2]
  simp only [View.readAt_eq_ld, harg2.read_unread, harg3.read_unread, harg4.read_unread,
    View.ld_unit_zero (S := S1x1024x512) hz3, View.ld_unit_zero (S := S1x1) hz2]

theorem sout_B_0 (hc0 : ¬cond0_0 i) (hc1 : ¬cond0_1 i) (hc2 : ¬cond0_2 i)
    (x0 x1 : Vec F S1x1024x512 .f32) (xo2 : Vec F S1x1 .f32) (xs0 xs1 xs2 : Vec F S1x512 .f32) :
    sout0_B_0 c i arg2 harg2 arg3 harg3 arg4 harg4 arg5 harg5 arg6 harg6 arg7 harg7 hc0 hc1 hc2 x0 x1 xo2 xs0 xs1 xs2
      = k0_pay1 (k0_pay11 x0) xs0 := by
  unfold sout0_B_0
  rw [View.read_writes_eq_canon _ _ _ (scover0_B_0 c i arg2 harg2 arg3 harg3 arg4 harg4 arg5 harg5 arg6 harg6 arg7 harg7 hc0 hc1 hc2 x0 x1 xo2 xs0 xs1 xs2)]
  unfold kernelRun0_B
  dsimp only
  sl_unfold_words
  rw [View.canon_unit_zero hz2]
  simp only [View.readAt_eq_ld, harg2.read_unread, harg5.read_unread,
    View.ld_unit_zero (S := S1x1024x512) hz3, View.ld_unit_zero (S := S1x512) hz2]

theorem sout_B_1 (hc0 : ¬cond0_0 i) (hc1 : ¬cond0_1 i) (hc2 : ¬cond0_2 i)
    (x0 x1 : Vec F S1x1024x512 .f32) (xo2 : Vec F S1x1 .f32) (xs0 xs1 xs2 : Vec F S1x512 .f32) :
    sout0_B_1 c i arg2 harg2 arg3 harg3 arg4 harg4 arg5 harg5 arg6 harg6 arg7 harg7 hc0 hc1 hc2 x0 x1 xo2 xs0 xs1 xs2
      = k0_pay2 (k0_pay12 x1) xs1 := by
  unfold sout0_B_1
  rw [View.read_writes_eq_canon _ _ _ (scover0_B_1 c i arg2 harg2 arg3 harg3 arg4 harg4 arg5 harg5 arg6 harg6 arg7 harg7 hc0 hc1 hc2 x0 x1 xo2 xs0 xs1 xs2)]
  unfold kernelRun0_B
  dsimp only
  sl_unfold_words
  rw [View.canon_unit_zero hz2]
  simp only [View.readAt_eq_ld, harg3.read_unread, harg6.read_unread,
    View.ld_unit_zero (S := S1x1024x512) hz3, View.ld_unit_zero (S := S1x512) hz2]

theorem sout_B_2 (hc0 : ¬cond0_0 i) (hc1 : ¬cond0_1 i) (hc2 : ¬cond0_2 i)
    (x0 x1 : Vec F S1x1024x512 .f32) (xo2 : Vec F S1x1 .f32) (xs0 xs1 xs2 : Vec F S1x512 .f32) :
    sout0_B_2 c i arg2 harg2 arg3 harg3 arg4 harg4 arg5 harg5 arg6 harg6 arg7 harg7 hc0 hc1 hc2 x0 x1 xo2 xs0 xs1 xs2
      = k0_pay3 (k0_pay13 x0 x1) xs2 := by
  unfold sout0_B_2
  rw [View.read_writes_eq_canon _ _ _ (scover0_B_2 c i arg2 harg2 arg3 harg3 arg4 harg4 arg5 harg5 arg6 harg6 arg7 harg7 hc0 hc1 hc2 x0 x1 xo2 xs0 xs1 xs2)]
  unfold kernelRun0_B
  dsimp only
  sl_unfold_words
  rw [View.canon_unit_zero hz2]
  simp only [View.readAt_eq_ld, harg2.read_unread, harg3.read_unread, harg7.read_unread,
    View.ld_unit_zero (S := S1x1024x512) hz3, View.ld_unit_zero (S := S1x512) hz2]

/-! ## A batch's last tile: the total also gains the column terms of the accumulators just updated -/

/-- The total is stored twice: first with the tile's row terms added, then, read back, with the column terms
    of the three accumulators, each read back after its own update. The later store is what the buffer holds. -/
theorem out_C (hc0 : ¬cond0_0 i) (hc1 : ¬cond0_1 i) (hc2 : cond0_2 i)
    (x0 x1 : Vec F S1x1024x512 .f32) (xo2 : Vec F S1x1 .f32) (xs0 xs1 xs2 : Vec F S1x512 .f32) :
    out0_C_2 c i arg2 harg2 arg3 harg3 arg4 harg4 arg5 harg5 arg6 harg6 arg7 harg7 hc0 hc1 hc2 x0 x1 xo2 xs0 xs1 xs2
      = k0_pay4 (k0_pay1 (k0_pay11 x0) xs0) (k0_pay2 (k0_pay12 x1) xs1) (k0_pay3 (k0_pay13 x0 x1) xs2) (k0_pay14 x0 x1 xo2) := by
  unfold out0_C_2
  rw [View.read_writes_eq_canon _ _ _ (cover0_C_2 c i arg2 harg2 arg3 harg3 arg4 harg4 arg5 harg5 arg6 harg6 arg7 harg7 hc0 hc1 hc2 x0 x1 xo2 xs0 xs1 xs2)]
  unfold kernelRun0_C
  dsimp only
  sl_unfold_words
  rw [View.canon_cons_unit_zero (S := S1x1) hz2]
  simp only [View.readCov_unit_zero (S := S1x1) _ hz2, View.readCov_unit_zero (S := S1x512) _ hz2, View.readAt_eq_ld,
    harg2.read_unread, harg3.read_unread, harg4.read_unread, harg5.read_unread, harg6.read_unread, harg7.read_unread,
    View.ld_unit_zero (S := S1x1024x512) hz3, View.ld_unit_zero (S := S1x1) hz2, View.ld_unit_zero (S := S1x512) hz2]

theorem sout_C_0 (hc0 : ¬cond0_0 i) (hc1 : ¬cond0_1 i) (hc2 : cond0_2 i)
    (x0 x1 : Vec F S1x1024x512 .f32) (xo2 : Vec F S1x1 .f32) (xs0 xs1 xs2 : Vec F S1x512 .f32) :
    sout0_C_0 c i arg2 harg2 arg3 harg3 arg4 harg4 arg5 harg5 arg6 harg6 arg7 harg7 hc0 hc1 hc2 x0 x1 xo2 xs0 xs1 xs2
      = k0_pay1 (k0_pay11 x0) xs0 := by
  unfold sout0_C_0
  rw [View.read_writes_eq_canon _ _ _ (scover0_C_0 c i arg2 harg2 arg3 harg3 arg4 harg4 arg5 harg5 arg6 harg6 arg7 harg7 hc0 hc1 hc2 x0 x1 xo2 xs0 xs1 xs2)]
  unfold kernelRun0_C
  dsimp only
  sl_unfold_words
  rw [View.canon_unit_zero hz2]
  simp only [View.readAt_eq_ld, harg2.read_unread, harg5.read_unread,
    View.ld_unit_zero (S := S1x1024x512) hz3, View.ld_unit_zero (S := S1x512) hz2]

theorem sout_C_1 (hc0 : ¬cond0_0 i) (hc1 : ¬cond0_1 i) (hc2 : cond0_2 i)
    (x0 x1 : Vec F S1x1024x512 .f32) (xo2 : Vec F S1x1 .f32) (xs0 xs1 xs2 : Vec F S1x512 .f32) :
    sout0_C_1 c i arg2 harg2 arg3 harg3 arg4 harg4 arg5 harg5 arg6 harg6 arg7 harg7 hc0 hc1 hc2 x0 x1 xo2 xs0 xs1 xs2
      = k0_pay2 (k0_pay12 x1) xs1 := by
  unfold sout0_C_1
  rw [View.read_writes_eq_canon _ _ _ (scover0_C_1 c i arg2 harg2 arg3 harg3 arg4 harg4 arg5 harg5 arg6 harg6 arg7 harg7 hc0 hc1 hc2 x0 x1 xo2 xs0 xs1 xs2)]
  unfold kernelRun0_C
  dsimp only
  sl_unfold_words
  rw [View.canon_unit_zero hz2]
  simp only [View.readAt_eq_ld, harg3.read_unread, harg6.read_unread,
    View.ld_unit_zero (S := S1x1024x512) hz3, View.ld_unit_zero (S := S1x512) hz2]

theorem sout_C_2 (hc0 : ¬cond0_0 i) (hc1 : ¬cond0_1 i) (hc2 : cond0_2 i)
    (x0 x1 : Vec F S1x1024x512 .f32) (xo2 : Vec F S1x1 .f32) (xs0 xs1 xs2 : Vec F S1x512 .f32) :
    sout0_C_2 c i arg2 harg2 arg3 harg3 arg4 harg4 arg5 harg5 arg6 harg6 arg7 harg7 hc0 hc1 hc2 x0 x1 xo2 xs0 xs1 xs2
      = k0_pay3 (k0_pay13 x0 x1) xs2 := by
  unfold sout0_C_2
  rw [View.read_writes_eq_canon _ _ _ (scover0_C_2 c i arg2 harg2 arg3 harg3 arg4 harg4 arg5 harg5 arg6 harg6 arg7 harg7 hc0 hc1 hc2 x0 x1 xo2 xs0 xs1 xs2)]
  unfold kernelRun0_C
  dsimp only
  sl_unfold_words
  rw [View.canon_unit_zero hz2]
  simp only [View.readAt_eq_ld, harg2.read_unread, harg3.read_unread, harg7.read_unread,
    View.ld_unit_zero (S := S1x1024x512) hz3, View.ld_unit_zero (S := S1x512) hz2]

/-! ## The very first tile: the total and the accumulators start from zero -/

/-- Each buffer is first stored the zero block, then read back and stored with the tile's share added. -/
theorem out_A (hc0 : cond0_0 i) (hc1 : cond0_1 i) (hc2 : ¬cond0_2 i) (x0 x1 : Vec F S1x1024x512 .f32) :
    out0_A_2 c i arg2 harg2 arg3 harg3 arg4 harg4 arg5 harg5 arg6 harg6 arg7 harg7 hc0 hc1 hc2 x0 x1
      = k0_pay14 x0 x1 (k0_pay5 (F := F)) := by
  unfold out0_A_2
  rw [View.read_writes_eq_canon _ _ _ (cover0_A_2 c i arg2 harg2 arg3 harg3 arg4 harg4 arg5 harg5 arg6 harg6 arg7 harg7 hc0 hc1 hc2 x0 x1)]
  unfold kernelRun0_A
  dsimp only
  sl_unfold_words
  rw [View.canon_cons_unit_zero (S := S1x1) hz2]
  simp only [View.readCov_unit_zero (S := S1x1) _ hz2, View.readAt_eq_ld, harg2.read_unread, harg3.read_unread,
    View.ld_unit_zero (S := S1x1024x512) hz3]

theorem sout_A_0 (hc0 : cond0_0 i) (hc1 : cond0_1 i) (hc2 : ¬cond0_2 i) (x0 x1 : Vec F S1x1024x512 .f32) :
    sout0_A_0 c i arg2 harg2 arg3 harg3 arg4 harg4 arg5 harg5 arg6 harg6 arg7 harg7 hc0 hc1 hc2 x0 x1
      = k0_pay1 (k0_pay11 x0) (k0_pay6 (F := F)) := by
  unfold sout0_A_0
  rw [View.read_writes_eq_canon _ _ _ (scover0_A_0 c i arg2 harg2 arg3 harg3 arg4 harg4 arg5 harg5 arg6 harg6 arg7 harg7 hc0 hc1 hc2 x0 x1)]
  unfold kernelRun0_A
  dsimp only
  sl_unfold_words
  rw [View.canon_cons_unit_zero (S := S1x512) hz2]
  simp only [View.readCov_unit_zero (S := S1x512) _ hz2, View.readAt_eq_ld, harg2.read_unread,
    View.ld_unit_zero (S := S1x1024x512) hz3]

theorem sout_A_1 (hc0 : cond0_0 i) (hc1 : cond0_1 i) (hc2 : ¬cond0_2 i) (x0 x1 : Vec F S1x1024x512 .f32) :
    sout0_A_1 c i arg2 harg2 arg3 harg3 arg4 harg4 arg5 harg5 arg6 harg6 arg7 harg7 hc0 hc1 hc2 x0 x1
      = k0_pay2 (k0_pay12 x1) (k0_pay7 (F := F)) := by
  unfold sout0_A_1
  rw [View.read_writes_eq_canon _ _ _ (scover0_A_1 c i arg2 harg2 arg3 harg3 arg4 harg4 arg5 harg5 arg6 harg6 arg7 harg7 hc0 hc1 hc2 x0 x1)]
  unfold kernelRun0_A
  dsimp only
  sl_unfold_words
  rw [View.canon_cons_unit_zero (S := S1x512) hz2]
  simp only [View.readCov_unit_zero (S := S1x512) _ hz2, View.readAt_eq_ld, harg3.read_unread,
    View.ld_unit_zero (S := S1x1024x512) hz3]

theorem sout_A_2 (hc0 : cond0_0 i) (hc1 : cond0_1 i) (hc2 : ¬cond0_2 i) (x0 x1 : Vec F S1x1024x512 .f32) :
    sout0_A_2 c i arg2 harg2 arg3 harg3 arg4 harg4 arg5 harg5 arg6 harg6 arg7 harg7 hc0 hc1 hc2 x0 x1
      = k0_pay3 (k0_pay13 x0 x1) (k0_pay8 (F := F)) := by
  unfold sout0_A_2
  rw [View.read_writes_eq_canon _ _ _ (scover0_A_2 c i arg2 harg2 arg3 harg3 arg4 harg4 arg5 harg5 arg6 harg6 arg7 harg7 hc0 hc1 hc2 x0 x1)]
  unfold kernelRun0_A
  dsimp only
  sl_unfold_words
  rw [View.canon_cons_unit_zero (S := S1x512) hz2]
  simp only [View.readCov_unit_zero (S := S1x512) _ hz2, View.readAt_eq_ld, harg2.read_unread, harg3.read_unread,
    View.ld_unit_zero (S := S1x1024x512) hz3]

/-! ## A later batch's first tile: the accumulators start from zero, the total goes on -/

theorem out_D (hc0 : ¬cond0_0 i) (hc1 : cond0_1 i) (hc2 : ¬cond0_2 i)
    (x0 x1 : Vec F S1x1024x512 .f32) (xo2 : Vec F S1x1 .f32) :
    out0_D_2 c i arg2 harg2 arg3 harg3 arg4 harg4 arg5 harg5 arg6 harg6 arg7 harg7 hc0 hc1 hc2 x0 x1 xo2
      = k0_pay14 x0 x1 xo2 := by
  unfold out0_D_2
  rw [View.read_writes_eq_canon _ _ _ (cover0_D_2 c i arg2 harg2 arg3 harg3 arg4 harg4 arg5 harg5 arg6 harg6 arg7 harg7 hc0 hc1 hc2 x0 x1 xo2)]
  unfold kernelRun0_D
  dsimp only
  sl_unfold_words
  rw [View.canon_unit_zero hz2]
  simp only [View.readAt_eq_ld, harg2.read_unread, harg3.read_unread, harg4.read_unread,
    View.ld_unit_zero (S := S1x1024x512) hz3, View.ld_unit_zero (S := S1x1) hz2]

theorem sout_D_0 (hc0 : ¬cond0_0 i) (hc1 : cond0_1 i) (hc2 : ¬cond0_2 i)
    (x0 x1 : Vec F S1x1024x512 .f32) (xo2 : Vec F S1x1 .f32) :
    sout0_D_0 c i arg2 harg2 arg3 harg3 arg4 harg4 arg5 harg5 arg6 harg6 arg7 harg7 hc0 hc1 hc2 x0 x1 xo2
      = k0_pay1 (k0_pay11 x0) (k0_pay6 (F := F)) := by
  unfold sout0_D_0
  rw [View.read_writes_eq_canon _ _ _ (scover0_D_0 c i arg2 harg2 arg3 harg3 arg4 harg4 arg5 harg5 arg6 harg6 arg7 harg7 hc0 hc1 hc2 x0 x1 xo2)]
  unfold kernelRun0_D
  dsimp only
  sl_unfold_words
  rw [View.canon_cons_unit_zero (S := S1x512) hz2]
  simp only [View.readCov_unit_zero (S := S1x512) _ hz2, View.readAt_eq_ld, harg2.read_unread,
    View.ld_unit_zero (S := S1x1024x512) hz3]

theorem sout_D_1 (hc0 : ¬cond0_0 i) (hc1 : cond0_1 i) (hc2 : ¬cond0_2 i)
    (x0 x1 : Vec F S1x1024x512 .f32) (xo2 : Vec F S1x1 .f32) :
    sout0_D_1 c i arg2 harg2 arg3 harg3 arg4 harg4 arg5 harg5 arg6 harg6 arg7 harg7 hc0 hc1 hc2 x0 x1 xo2
      = k0_pay2 (k0_pay12 x1) (k0_pay7 (F := F)) := by
  unfold sout0_D_1
  rw [View.read_writes_eq_canon _ _ _ (scover0_D_1 c i arg2 harg2 arg3 harg3 arg4 harg4 arg5 harg5 arg6 harg6 arg7 harg7 hc0 hc1 hc2 x0 x1 xo2)]
  unfold kernelRun0_D
  dsimp only
  sl_unfold_words
  rw [View.canon_cons_unit_zero (S := S1x512) hz2]
  simp only [View.readCov_unit_zero (S := S1x512) _ hz2, View.readAt_eq_ld, harg3.read_unread,
    View.ld_unit_zero (S := S1x1024x512) hz3]

theorem sout_D_2 (hc0 : ¬cond0_0 i) (hc1 : cond0_1 i) (hc2 : ¬cond0_2 i)
    (x0 x1 : Vec F S1x1024x512 .f32) (xo2 : Vec F S1x1 .f32) :
    sout0_D_2 c i arg2 harg2 arg3 harg3 arg4 harg4 arg5 harg5 arg6 harg6 arg7 harg7 hc0 hc1 hc2 x0 x1 xo2
      = k0_pay3 (k0_pay13 x0 x1) (k0_pay8 (F := F)) := by
  unfold sout0_D_2
  rw [View.read_writes_eq_canon _ _ _ (scover0_D_2 c i arg2 harg2 arg3 harg3 arg4 harg4 arg5 harg5 arg6 harg6 arg7 harg7 hc0 hc1 hc2 x0 x1 xo2)]
  unfold kernelRun0_D
  dsimp only
  sl_unfold_words
  rw [View.canon_cons_unit_zero (S := S1x512) hz2]
  simp only [View.readCov_unit_zero (S := S1x512) _ hz2, View.readAt_eq_ld, harg2.read_unread, harg3.read_unread,
    View.ld_unit_zero (S := S1x1024x512) hz3]

end Cert.KernelIdeal.SplK

end
-- ==== Proof.KSteps.lean ====
/-
  The contents after a grid point, case by case, as the body's arithmetic of the point's two input blocks and
  of the contents after the point before.
-/
import proofs.«173612_j10213432230325_1_alg».proof.Proof.KPieces

noncomputable section

namespace Cert.KernelIdeal.SplK

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The two input blocks of a grid point, at their literal shape. -/
abbrev xblk (c : Dev nD) (t : Fin cfg0.N) : Vec F S1x1024x512 .f32 := iblk m c 0 t
abbrev rblk (c : Dev nD) (t : Fin cfg0.N) : Vec F S1x1024x512 .f32 := iblk m c 1 t

/-- The contents after the point before `t`. -/
abbrev prev (c : Dev nD) (t : Fin cfg0.N) : Vec F S1x1 .f32 × Vec F S1x512 .f32 × Vec F S1x512 .f32 × Vec F S1x512 .f32 :=
  outsAt0 m c (t.val - 1) (Nat.lt_of_le_of_lt (Nat.sub_le _ _) t.isLt)

/-- The very first tile: everything starts from zero. -/
theorem step_A (c : Dev nD) (t : Fin cfg0.N) (h0 : t.val % 128 = 0) (h1 : t.val % 4 = 0) (h2 : ¬t.val % 4 = 3) :
    outsAt0 m c t.val t.isLt
      = (k0_pay14 (xblk m c t) (rblk m c t) (k0_pay5 (F := F)),
         k0_pay1 (k0_pay11 (xblk m c t)) (k0_pay6 (F := F)),
         k0_pay2 (k0_pay12 (rblk m c t)) (k0_pay7 (F := F)),
         k0_pay3 (k0_pay13 (xblk m c t) (rblk m c t)) (k0_pay8 (F := F))) := by
  rw [outsAt0_A m c t h0 h1 h2]
  exact congrArg₂ Prod.mk
    (out_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t))
    (congrArg₂ Prod.mk
      (sout_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t))
      (congrArg₂ Prod.mk
        (sout_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t))
        (sout_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t))))

/-- A later batch's first tile: the accumulators start from zero, the total goes on. -/
theorem step_D (c : Dev nD) (t : Fin cfg0.N) (h0 : ¬t.val % 128 = 0) (h1 : t.val % 4 = 0) (h2 : ¬t.val % 4 = 3) :
    outsAt0 m c t.val t.isLt
      = (k0_pay14 (xblk m c t) (rblk m c t) (prev m c t).1,
         k0_pay1 (k0_pay11 (xblk m c t)) (k0_pay6 (F := F)),
         k0_pay2 (k0_pay12 (rblk m c t)) (k0_pay7 (F := F)),
         k0_pay3 (k0_pay13 (xblk m c t) (rblk m c t)) (k0_pay8 (F := F))) := by
  rw [outsAt0_D m c t h0 h1 h2]
  exact congrArg₂ Prod.mk
    (out_D c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (prev m c t).1)
    (congrArg₂ Prod.mk
      (sout_D_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (prev m c t).1)
      (congrArg₂ Prod.mk
        (sout_D_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (prev m c t).1)
        (sout_D_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (prev m c t).1)))

/-- A middle tile: everything goes on. -/
theorem step_B (c : Dev nD) (t : Fin cfg0.N) (h0 : ¬t.val % 128 = 0) (h1 : ¬t.val % 4 = 0) (h2 : ¬t.val % 4 = 3) :
    outsAt0 m c t.val t.isLt
      = (k0_pay14 (xblk m c t) (rblk m c t) (prev m c t).1,
         k0_pay1 (k0_pay11 (xblk m c t)) (prev m c t).2.1,
         k0_pay2 (k0_pay12 (rblk m c t)) (prev m c t).2.2.1,
         k0_pay3 (k0_pay13 (xblk m c t) (rblk m c t)) (prev m c t).2.2.2) := by
  rw [outsAt0_B m c t h0 h1 h2]
  exact congrArg₂ Prod.mk
    (out_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (prev m c t).1 (prev m c t).2.1 (prev m c t).2.2.1 (prev m c t).2.2.2)
    (congrArg₂ Prod.mk
      (sout_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (prev m c t).1 (prev m c t).2.1 (prev m c t).2.2.1 (prev m c t).2.2.2)
      (congrArg₂ Prod.mk
        (sout_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (prev m c t).1 (prev m c t).2.1 (prev m c t).2.2.1 (prev m c t).2.2.2)
        (sout_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (prev m c t).1 (prev m c t).2.1 (prev m c t).2.2.1 (prev m c t).2.2.2)))

/-- A batch's last tile: everything goes on, and the total also gains the column terms of the accumulators
    just updated. -/
theorem step_C (c : Dev nD) (t : Fin cfg0.N) (h0 : ¬t.val % 128 = 0) (h1 : ¬t.val % 4 = 0) (h2 : t.val % 4 = 3) :
    outsAt0 m c t.val t.isLt
      = (k0_pay4 (k0_pay1 (k0_pay11 (xblk m c t)) (prev m c t).2.1) (k0_pay2 (k0_pay12 (rblk m c t)) (prev m c t).2.2.1)
            (k0_pay3 (k0_pay13 (xblk m c t) (rblk m c t)) (prev m c t).2.2.2) (k0_pay14 (xblk m c t) (rblk m c t) (prev m c t).1),
         k0_pay1 (k0_pay11 (xblk m c t)) (prev m c t).2.1,
         k0_pay2 (k0_pay12 (rblk m c t)) (prev m c t).2.2.1,
         k0_pay3 (k0_pay13 (xblk m c t) (rblk m c t)) (prev m c t).2.2.2) := by
  rw [outsAt0_C m c t h0 h1 h2]
  exact congrArg₂ Prod.mk
    (out_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (prev m c t).1 (prev m c t).2.1 (prev m c t).2.2.1 (prev m c t).2.2.2)
    (congrArg₂ Prod.mk
      (sout_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (prev m c t).1 (prev m c t).2.1 (prev m c t).2.2.1 (prev m c t).2.2.2)
      (congrArg₂ Prod.mk
        (sout_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (prev m c t).1 (prev m c t).2.1 (prev m c t).2.2.1 (prev m c t).2.2.2)
        (sout_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (prev m c t).1 (prev m c t).2.1 (prev m c t).2.2.1 (prev m c t).2.2.2)))

end Cert.KernelIdeal.SplK

end
-- ==== Proof.SplSpec.lean ====
/-
  The loss both programs compute, as one function of the two argument arrays.

  For a batch `b` the arrays `x b` and `r b` are 4096 rows of 512 entries. The cosine-like term of two
  vectors `u`, `v` over an index type is `(∑ u·v) / (max (√∑ u²) ε · max (√∑ v²) ε)` with the threshold `ε`
  the float nearest `1e-12`. The loss adds, per batch, the terms of the 4096 row pairs over `4096` and the
  terms of the 512 column pairs over `512`, sums over the 32 batches and scales by `-1/32`.

  `kernelE` spells that on the extended reals the way the tiled program accumulates it (rows by four tiles of
  1024; the quotient of sums taken once per pair), `refE` the way the plain program does (each entry divided
  by its norm first, then multiplied and summed; the two halves negated and divided by 32 separately), and
  `loss` is the real number both denote when every entry is real.
-/
import Mathlib.Algebra.BigOperators.Group.Finset.Basic
import Mathlib.Algebra.BigOperators.Fin
import Mathlib.Data.EReal.Basic
import Mathlib.Data.EReal.Operations
import Mathlib.Data.EReal.Inv
import Mathlib.Analysis.Real.Sqrt
import Idealize.ShloMosaic.PureOps.Ideal
import Idealize.ShloMosaic.Lib.ValueIdx

noncomputable section

namespace Cert.Spl

open Idealize.ShloMosaic

/-- The threshold under both norms, as the extended real its word denotes. -/
abbrev epsW : EReal := Ideal.ofBits .f32 0x2B8CBCCC#32
/-- The words of 4096, 512, 32, 1 and -1/32. -/
abbrev w4096 : EReal := Ideal.ofBits .f32 0x45800000#32
abbrev w512 : EReal := Ideal.ofBits .f32 0x44000000#32
abbrev w32 : EReal := Ideal.ofBits .f32 0x42000000#32
abbrev w1 : EReal := Ideal.ofBits .f32 0x3F800000#32
abbrev wNeg32nd : EReal := Ideal.ofBits .f32 0xBD000000#32

/-- An array of 32 batches of 4096 rows of 512 entries, read by its three coordinates. -/
def cur (X : (⟨3, ![32, 4096, 512]⟩ : Shape).Idx → EReal) : Fin 32 → Fin 4096 → Fin 512 → EReal :=
  fun b n d => X (ValueIdx.ix3 b n d)

/-- The term of two vectors on the extended reals: their product summed, over the product of their two
    thresholded norms. -/
def termE {ι : Type} [Fintype ι] (u v : ι → EReal) : EReal :=
  Ideal.div (∑ i, u i * v i)
    (max (Ideal.sqrt (∑ i, u i * u i)) epsW * max (Ideal.sqrt (∑ i, v i * v i)) epsW)

/-- Row `j` of tile `k`: the 4096 rows are four tiles of 1024 consecutive rows. -/
def tileRow (k : Fin 4) (j : Fin 1024) : Fin 4096 :=
  ⟨1024 * k.val + j.val, by have := k.isLt; have := j.isLt; omega⟩

/-- What one tile adds to the running total: its 1024 row terms summed, over 4096. -/
def rowE (x r : Fin 32 → Fin 4096 → Fin 512 → EReal) (b : Fin 32) (k : Fin 4) : EReal :=
  Ideal.div (∑ j : Fin 1024, termE (x b (tileRow k j)) (r b (tileRow k j))) w4096

/-- What a batch's last tile adds besides: the 512 column terms summed, over 512. -/
def colE (x r : Fin 32 → Fin 4096 → Fin 512 → EReal) (b : Fin 32) : EReal :=
  Ideal.div (∑ d : Fin 512, termE (fun n : Fin 4096 => x b n d) (fun n : Fin 4096 => r b n d)) w512

/-- The tiled program's result: every tile's and every batch's contribution, scaled by the word of -1/32. -/
def kernelE (x r : Fin 32 → Fin 4096 → Fin 512 → EReal) : EReal :=
  wNeg32nd * ((∑ b : Fin 32, ∑ k : Fin 4, rowE x r b k) + ∑ b : Fin 32, colE x r b)

/-- One half of the plain program's result: every entry of each array divided by its thresholded norm
    (`nx b n d`, `nr b n d`: the sums of squares the norms are taken of), the quotients multiplied and summed
    per batch, divided by `w`, times one; the batches summed, negated, divided by 32. -/
def halfE (x r : Fin 32 → Fin 4096 → Fin 512 → EReal) (nx nr : Fin 32 → Fin 4096 → Fin 512 → EReal)
    (w : EReal) : EReal :=
  Ideal.div (-(∑ b : Fin 32,
    Ideal.div (∑ n : Fin 4096, ∑ d : Fin 512,
      Ideal.div (x b n d) (max (Ideal.sqrt (nx b n d)) epsW) * Ideal.div (r b n d) (max (Ideal.sqrt (nr b n d)) epsW)) w * w1)) w32

/-- The plain program's result: the row half (norms along the 512 entries of a row) plus the column half
    (norms along the 4096 entries of a column). -/
def refE (x r : Fin 32 → Fin 4096 → Fin 512 → EReal) : EReal :=
  halfE x r (fun b n _ => ∑ d' : Fin 512, x b n d' * x b n d') (fun b n _ => ∑ d' : Fin 512, r b n d' * r b n d') w4096
  + halfE x r (fun b _ d => ∑ n' : Fin 4096, x b n' d * x b n' d) (fun b _ d => ∑ n' : Fin 4096, r b n' d * r b n' d) w512

/-- The term of two real vectors with a real threshold `e`. -/
def term {ι : Type} [Fintype ι] (e : ℝ) (u v : ι → ℝ) : ℝ :=
  (∑ i, u i * v i) / (max (Real.sqrt (∑ i, u i * u i)) e * max (Real.sqrt (∑ i, v i * v i)) e)

/-- The loss as a real number. -/
def loss (e : ℝ) (x r : Fin 32 → Fin 4096 → Fin 512 → ℝ) : ℝ :=
  -(1 / 32) * ∑ b : Fin 32,
    ((∑ n : Fin 4096, term e (x b n) (r b n)) / 4096
      + (∑ d : Fin 512, term e (fun n : Fin 4096 => x b n d) (fun n : Fin 4096 => r b n d)) / 512)

end Cert.Spl

end
-- ==== Proof.KPayloads.lean ====
/-
  The body's arithmetic at the extended reals, read at an index.

  A point's two input blocks are 1024 rows of 512 entries. The running total gains the tile's 1024 row terms
  summed, over 4096; each of the three column accumulators gains, at column `d`, the tile's column sum of
  squares (of the first block, of the second) or of products; and at a batch's last tile the total gains the
  512 column terms, each the accumulated products over the product of the two thresholded norms, summed, over 512.
-/
import proofs.«173612_j10213432230325_1_alg».proof.Proof.Gen.KernelIdeal.Skeleton
import proofs.«173612_j10213432230325_1_alg».proof.Proof.SplSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SplK

open Cert.KernelIdeal Cert.KernelIdeal.Gen Cert.Spl
open Idealize.ShloMosaic Idealize.ShloMosaic.ValueIdx

/-! ## The column cast and the lane sums, read at coordinates -/

/-- An `[a]` array cast to the column `[a, 1]` reads, at `(i, u)`, the operand at `i`, whatever the unit
    coordinate `u`: the two row-major positions are `i` and `i * 1 + u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the rows of an `[a, b]` array, at column `d`, is the sum of that column's entries. -/
theorem sumAxis0_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.add.neutral .f32 hφ) (d : Fin b) :
    multiReduction (F := Ideal) .add [0] ⟨1, ![b]⟩ src acc h hφ hacc (ix1 d) = ∑ j : Fin a, src (ix2 j d) :=
  (Ideal.multiReduction_add_single src acc h hφ hacc (ix1 d)).trans
    (Finset.sum_congr rfl fun k _ => congrArg src (funext fun c => Fin.ext (by
      match c with
      | ⟨0, _⟩ => rfl
      | ⟨1, _⟩ => rfl)))

/-- The sum along the rows of an `[a, b]` array, at row `j`, is the sum of that row's entries. -/
theorem sumAxis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (j : Fin a) :
    multiReduction (F := Ideal) .add [1] ⟨1, ![a]⟩ src acc h hφ hacc (ix1 j) = ∑ d : Fin b, src (ix2 j d) :=
  (Ideal.multiReduction_add_single src acc h hφ hacc (ix1 j)).trans
    (Finset.sum_congr rfl fun k _ => congrArg src (funext fun c => Fin.ext (by
      match c with
      | ⟨0, _⟩ => rfl
      | ⟨1, _⟩ => rfl)))

/-! ## The pointwise square root and the words, read at the extended reals -/

/-- A square root at an index is the extended reals' square root of the element. -/
theorem sqrt_apply {s : Shape} {φ : FTy} (a : FVec Ideal s φ) (i : s.Idx) : sqrt a i = Ideal.sqrt (a i) := rfl

/-- A word read as a scalar is the extended real it encodes. -/
theorem scalar_ofBits (b : BitVec 32) : Scalar.ofBits (F := Ideal) .f32 b = Ideal.ofBits .f32 b := rfl

/-- The one index of a `[1, 1]` array. -/
theorem idx11 (y : S1x1.Idx) : y = ix2 (0 : Fin 1) (0 : Fin 1) := by
  obtain ⟨p, q, rfl⟩ : ∃ (p : Fin 1) (q : Fin 1), y = ix2 p q := ⟨y 0, y 1, eq_ix2 y⟩
  obtain rfl : p = 0 := Subsingleton.elim _ _
  obtain rfl : q = 0 := Subsingleton.elim _ _
  rfl

/-! ## The blocks without their unit axis, and their products -/

/-- The first block without its unit axis, at row `j` and column `d`. -/
theorem pay9_apply (v : Vec Ideal S1x1024x512 .f32) (j : Fin 1024) (d : Fin 512) :
    k0_pay9 (F := Ideal) v (ix2 j d) = v (ix3 0 j d) :=
  shapeCast_1ab_ab_apply v _ j d

/-- The second block likewise. -/
theorem pay10_apply (v : Vec Ideal S1x1024x512 .f32) (j : Fin 1024) (d : Fin 512) :
    k0_pay10 (F := Ideal) v (ix2 j d) = v (ix3 0 j d) :=
  shapeCast_1ab_ab_apply v _ j d

/-- The first block's squares. -/
theorem pay11_apply (v : Vec Ideal S1x1024x512 .f32) (j : Fin 1024) (d : Fin 512) :
    k0_pay11 (F := Ideal) v (ix2 j d) = v (ix3 0 j d) * v (ix3 0 j d) := by
  show k0_pay9 (F := Ideal) v (ix2 j d) * k0_pay9 (F := Ideal) v (ix2 j d) = _
  rw [pay9_apply]

/-- The second block's squares. -/
theorem pay12_apply (v : Vec Ideal S1x1024x512 .f32) (j : Fin 1024) (d : Fin 512) :
    k0_pay12 (F := Ideal) v (ix2 j d) = v (ix3 0 j d) * v (ix3 0 j d) := by
  show k0_pay10 (F := Ideal) v (ix2 j d) * k0_pay10 (F := Ideal) v (ix2 j d) = _
  rw [pay10_apply]

/-- The two blocks' products. -/
theorem pay13_apply (v w : Vec Ideal S1x1024x512 .f32) (j : Fin 1024) (d : Fin 512) :
    k0_pay13 (F := Ideal) v w (ix2 j d) = v (ix3 0 j d) * w (ix3 0 j d) := by
  show k0_pay9 (F := Ideal) v (ix2 j d) * k0_pay10 (F := Ideal) w (ix2 j d) = _
  rw [pay9_apply, pay10_apply]

/-! ## The payloads read at an index -/

/-- The reset values are zero everywhere. -/
theorem pay5_apply (y : S1x1.Idx) : (k0_pay5 (F := Ideal)) y = 0 := by
  show Ideal.ofBits .f32 0x00000000#32 = 0
  exact Ideal.ofBits_zero_f32

theorem pay6_apply (y : S1x512.Idx) : (k0_pay6 (F := Ideal)) y = 0 := by
  unfold k0_pay6
  rw [shapeCast_self]
  show Ideal.ofBits .f32 0x00000000#32 = 0
  exact Ideal.ofBits_zero_f32

theorem pay7_apply (y : S1x512.Idx) : (k0_pay7 (F := Ideal)) y = 0 := by
  unfold k0_pay7
  rw [shapeCast_self]
  show Ideal.ofBits .f32 0x00000000#32 = 0
  exact Ideal.ofBits_zero_f32

theorem pay8_apply (y : S1x512.Idx) : (k0_pay8 (F := Ideal)) y = 0 := by
  unfold k0_pay8
  rw [shapeCast_self]
  show Ideal.ofBits .f32 0x00000000#32 = 0
  exact Ideal.ofBits_zero_f32

/-- The running total after a tile: what it held plus the tile's row terms summed, over 4096. -/
theorem pay14_apply (xb rb : Vec Ideal S1x1024x512 .f32) (o : Vec Ideal S1x1 .f32) (y : S1x1.Idx) :
    k0_pay14 (F := Ideal) xb rb o y
      = o y + Ideal.div (∑ j : Fin 1024, termE (fun d : Fin 512 => xb (ix3 0 j d)) (fun d : Fin 512 => rb (ix3 0 j d))) w4096 := by
  obtain rfl := idx11 y
  unfold k0_pay14
  rw [addf_apply, shapeCast_self, divf_apply, broadcast_apply]
  refine congrArg (fun t => o (ix2 0 0) + Ideal.div t w4096) ?_
  refine (shapeCast_a_1a_apply _ _ 0 0).trans ?_
  refine (sumAxis0_apply _ _ _ _ _ 0).trans ?_
  refine Finset.sum_congr rfl fun j _ => ?_
  rw [divf_apply, mulf_apply, maximumf_apply, maximumf_apply, broadcast_apply, sqrt_apply, sqrt_apply]
  unfold termE
  refine congrArg₂ Ideal.div ?_ (congrArg₂ (· * ·) (congrArg (fun t => max (Ideal.sqrt t) epsW) ?_)
    (congrArg (fun t => max (Ideal.sqrt t) epsW) ?_))
  · refine (shapeCast_a_a1_apply _ _ j 0).trans ?_
    refine (sumAxis1_apply _ _ _ _ _ j).trans ?_
    exact Finset.sum_congr rfl fun d _ => pay13_apply xb rb j d
  · refine (shapeCast_a_a1_apply _ _ j 0).trans ?_
    refine (sumAxis1_apply _ _ _ _ _ j).trans ?_
    exact Finset.sum_congr rfl fun d _ => pay11_apply xb j d
  · refine (shapeCast_a_a1_apply _ _ j 0).trans ?_
    refine (sumAxis1_apply _ _ _ _ _ j).trans ?_
    exact Finset.sum_congr rfl fun d _ => pay12_apply rb j d

/-- The first accumulator after a tile, at column `d`: what it held plus the column's squares of the first block. -/
theorem pay1_apply (xb : Vec Ideal S1x1024x512 .f32) (s : Vec Ideal S1x512 .f32) (d : Fin 512) :
    k0_pay1 (F := Ideal) (k0_pay11 xb) s (ix2 0 d) = s (ix2 0 d) + ∑ j : Fin 1024, xb (ix3 0 j d) * xb (ix3 0 j d) := by
  unfold k0_pay1
  rw [shapeCast_self, addf_apply]
  refine congrArg (s (ix2 0 d) + ·) ?_
  refine (shapeCast_a_1a_apply _ _ 0 d).trans ?_
  refine (sumAxis0_apply _ _ _ _ _ d).trans ?_
  exact Finset.sum_congr rfl fun j _ => pay11_apply xb j d

/-- The second accumulator: the squares of the second block. -/
theorem pay2_apply (rb : Vec Ideal S1x1024x512 .f32) (s : Vec Ideal S1x512 .f32) (d : Fin 512) :
    k0_pay2 (F := Ideal) (k0_pay12 rb) s (ix2 0 d) = s (ix2 0 d) + ∑ j : Fin 1024, rb (ix3 0 j d) * rb (ix3 0 j d) := by
  unfold k0_pay2
  rw [shapeCast_self, addf_apply]
  refine congrArg (s (ix2 0 d) + ·) ?_
  refine (shapeCast_a_1a_apply _ _ 0 d).trans ?_
  refine (sumAxis0_apply _ _ _ _ _ d).trans ?_
  exact Finset.sum_congr rfl fun j _ => pay12_apply rb j d

/-- The third accumulator: the products of the two blocks. -/
theorem pay3_apply (xb rb : Vec Ideal S1x1024x512 .f32) (s : Vec Ideal S1x512 .f32) (d : Fin 512) :
    k0_pay3 (F := Ideal) (k0_pay13 xb rb) s (ix2 0 d) = s (ix2 0 d) + ∑ j : Fin 1024, xb (ix3 0 j d) * rb (ix3 0 j d) := by
  unfold k0_pay3
  rw [shapeCast_self, addf_apply]
  refine congrArg (s (ix2 0 d) + ·) ?_
  refine (shapeCast_a_1a_apply _ _ 0 d).trans ?_
  refine (sumAxis0_apply _ _ _ _ _ d).trans ?_
  exact Finset.sum_congr rfl fun j _ => pay13_apply xb rb j d

/-- The running total after a batch's last tile: what it held plus the column terms summed, over 512. -/
theorem pay4_apply (s0 s1 s2 : Vec Ideal S1x512 .f32) (o : Vec Ideal S1x1 .f32) (y : S1x1.Idx) :
    k0_pay4 (F := Ideal) s0 s1 s2 o y
      = o y + Ideal.div (∑ d : Fin 512, Ideal.div (s2 (ix2 0 d))
          (max (Ideal.sqrt (s0 (ix2 0 d))) epsW * max (Ideal.sqrt (s1 (ix2 0 d))) epsW)) w512 := by
  obtain rfl := idx11 y
  unfold k0_pay4
  rw [addf_apply, shapeCast_self, divf_apply, broadcast_apply]
  refine congrArg (fun t => o (ix2 0 0) + Ideal.div t w512) ?_
  refine (shapeCast_a_1a_apply _ _ 0 0).trans ?_
  refine (sumAxis1_apply _ _ _ _ _ 0).trans ?_
  refine Finset.sum_congr rfl fun d _ => ?_
  rw [divf_apply, mulf_apply, maximumf_apply, maximumf_apply, broadcast_apply, sqrt_apply, sqrt_apply]
  rfl

end Cert.KernelIdeal.SplK

end
-- ==== Proof.LibTileSum.lean ====
/-
  Sums taken tile by tile.

  A sum over the first `a * b` naturals is the sum, over `a` consecutive tiles of length `b`, of each tile's
  own sum: `∑ k < a·b, f k = ∑ s < a, ∑ j < b, f (b·s + j)`. Only associativity of `+` is used, so the law
  holds in any additive commutative monoid — in particular on the extended reals, where no finiteness is needed.
  The `Fin` form states the same for a sum over `Fin (a * b)` against a sum over `Fin a × Fin b` spelled as
  an iterated sum, which is how a contraction over a long axis meets the same contraction accumulated
  block by block.
-/
import Mathlib.Algebra.BigOperators.Group.Finset.Basic
import Mathlib.Algebra.BigOperators.Fin

namespace TileSum

open Finset

variable {β : Type*} [AddCommMonoid β]

/-- A sum over `range (a * b)` is the sum over the `a` tiles `[b·s, b·s + b)` of the tiles' sums. -/
theorem sum_range_mul (f : ℕ → β) (a b : ℕ) :
    ∑ k ∈ range (a * b), f k = ∑ s ∈ range a, ∑ j ∈ range b, f (b * s + j) := by
  induction a with
  | zero => simp
  | succ a ih =>
    rw [Nat.succ_mul, sum_range_add, ih, sum_range_succ, Nat.mul_comm a b]

/-- The same with the long sum over `Fin (a * b)` and the tiles over `Fin a` and `Fin b`: `g` is any
    function of the natural index that the two sides agree to read. -/
theorem sum_fin_mul (g : ℕ → β) (a b : ℕ) :
    ∑ k : Fin (a * b), g k.val = ∑ s : Fin a, ∑ j : Fin b, g (b * s.val + j.val) := by
  rw [Fin.sum_univ_eq_sum_range (fun k => g k) (a * b), sum_range_mul g a b,
    ← Fin.sum_univ_eq_sum_range (fun s => ∑ j ∈ range b, g (b * s + j)) a]
  refine Finset.sum_congr rfl fun s _ => ?_
  exact (Fin.sum_univ_eq_sum_range (fun j => g (b * s.val + j)) b).symm

/-- The tiles' sum written over `range a` (as a fold over grid points unrolls it) against the long sum over
    `Fin (a * b)`. -/
theorem sum_range_tiles_eq_sum_fin (g : ℕ → β) (a b : ℕ) :
    ∑ s ∈ range a, ∑ j : Fin b, g (b * s + j.val) = ∑ k : Fin (a * b), g k.val := by
  rw [Fin.sum_univ_eq_sum_range (fun k => g k) (a * b), sum_range_mul g a b]
  refine Finset.sum_congr rfl fun s _ => ?_
  exact Fin.sum_univ_eq_sum_range (fun j => g (b * s + j)) b

end TileSum
-- ==== Proof.KFold.lean ====
/-
  The contents after every grid point, in closed form, at the extended reals.

  Grid point `n` is tile `n % 4` of batch `n / 4`. After it the total holds every earlier tile's row share and
  every finished batch's column share; each column accumulator holds, at column `d`, the sum over the batch's
  tiles so far of the tile's column sum. By induction over the points, never by listing them.
-/
import proofs.«173612_j10213432230325_1_alg».proof.Proof.KSteps
import proofs.«173612_j10213432230325_1_alg».proof.Proof.KPayloads
import proofs.«173612_j10213432230325_1_alg».proof.Proof.SplSpec
import proofs.«173612_j10213432230325_1_alg».proof.Proof.LibTileSum

noncomputable section

namespace Cert.KernelIdeal.SplK

open Cert.KernelIdeal Cert.KernelIdeal.Gen Cert.Spl
open Idealize.ShloMosaic Idealize.ShloMosaic.TcCoe Idealize.SL.Sem Idealize.ShloMosaic.ValueIdx

variable (m : (ℓ : Loc nD τ sig) → Buf (Elt Ideal) ℓ)

/-- The batch and the tile of grid point `n` (total in `n`). -/
def bOf (n : ℕ) : Fin 32 := ⟨n / 4 % 32, Nat.mod_lt _ (by norm_num)⟩
def kOf (n : ℕ) : Fin 4 := ⟨n % 4, Nat.mod_lt _ (by norm_num)⟩

/-- The two argument arrays as the region finds them, by coordinates. -/
abbrev Xc (c : Dev nD) : Fin 32 → Fin 4096 → Fin 512 → EReal := cur (V m c main_arg0)
abbrev Rc (c : Dev nD) : Fin 32 → Fin 4096 → Fin 512 → EReal := cur (V m c main_arg1)

/-- Where the two index maps send a grid point: block (n / 4, n % 4, 0), decided over the grid. -/
theorem idx_facts0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem idx_facts1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)

/-- Row `j`, entry `d` of a point's first block is row `1024 (n % 4) + j`, entry `d` of batch `n / 4`. -/
theorem xblk_apply (c : Dev nD) (t : Fin cfg0.N) (j : Fin 1024) (d : Fin 512) :
    xblk m c t (ix3 0 j d) = Xc m c (bOf t.val) (tileRow (kOf t.val) j) d := by
  have hN : t.val < 128 := lt_of_lt_of_eq t.isLt (show cfg0.N = 128 from N_0)
  obtain ⟨i0, i1, i2⟩ := idx_facts0 t
  show iblk m c 0 t (ix3 0 j d) = _
  unfold iblk
  rw [View.read_apply]
  show V m c main_arg0 _ = V m c main_arg0 _
  congr 1
  funext a
  apply Fin.ext
  match a with
  | ⟨0, _⟩ => show win0_0.index t 0 * 1 + 1 * 0 = t.val / 4 % 32; rw [i0]; omega
  | ⟨1, _⟩ => show win0_0.index t 1 * 1024 + 1 * j.val = 1024 * (t.val % 4) + j.val; rw [i1]; omega
  | ⟨2, _⟩ => show win0_0.index t 2 * 512 + 1 * d.val = d.val; rw [i2]; omega

theorem rblk_apply (c : Dev nD) (t : Fin cfg0.N) (j : Fin 1024) (d : Fin 512) :
    rblk m c t (ix3 0 j d) = Rc m c (bOf t.val) (tileRow (kOf t.val) j) d := by
  have hN : t.val < 128 := lt_of_lt_of_eq t.isLt (show cfg0.N = 128 from N_0)
  obtain ⟨i0, i1, i2⟩ := idx_facts1 t
  show iblk m c 1 t (ix3 0 j d) = _
  unfold iblk
  rw [View.read_apply]
  show V m c main_arg1 _ = V m c main_arg1 _
  congr 1
  funext a
  apply Fin.ext
  match a with
  | ⟨0, _⟩ => show win0_1.index t 0 * 1 + 1 * 0 = t.val / 4 % 32; rw [i0]; omega
  | ⟨1, _⟩ => show win0_1.index t 1 * 1024 + 1 * j.val = 1024 * (t.val % 4) + j.val; rw [i1]; omega
  | ⟨2, _⟩ => show win0_1.index t 2 * 512 + 1 * d.val = d.val; rw [i2]; omega

/-! ## The closed forms and how they grow -/

/-- The sum over the batch's tiles up to tile `n % 4` of the tile's sum of `g` over its 1024 rows. -/
def accG (g : Fin 4096 → EReal) (n : ℕ) : EReal :=
  ∑ k ∈ Finset.range (n % 4 + 1), ∑ j : Fin 1024, g (tileRow (kOf k) j)

/-- At a batch's first tile the accumulated sum is that tile's alone. -/
theorem accG_first (g : Fin 4096 → EReal) (n : ℕ) (h : n % 4 = 0) :
    accG g n = ∑ j : Fin 1024, g (tileRow (kOf n) j) := by
  unfold accG
  rw [h, Finset.sum_range_one]
  have e : kOf 0 = kOf n := Fin.ext (by show 0 % 4 = n % 4; omega)
  rw [e]

/-- At a later tile it is what was accumulated plus that tile's. -/
theorem accG_succ (g : Fin 4096 → EReal) (n : ℕ) (h : ¬(n + 1) % 4 = 0) :
    accG g (n + 1) = accG g n + ∑ j : Fin 1024, g (tileRow (kOf (n + 1)) j) := by
  unfold accG
  have e1 : (n + 1) % 4 + 1 = (n % 4 + 1) + 1 := by omega
  rw [e1, Finset.sum_range_succ]
  have e : kOf (n % 4 + 1) = kOf (n + 1) := Fin.ext (by show (n % 4 + 1) % 4 = (n + 1) % 4; omega)
  rw [e]

/-- After a batch's last tile the four tiles are the 4096 rows. -/
theorem accG_last (g : Fin 4096 → EReal) (n : ℕ) (h : n % 4 = 3) : accG g n = ∑ r : Fin 4096, g r := by
  unfold accG
  rw [h]
  have key := TileSum.sum_range_tiles_eq_sum_fin (fun q : ℕ => if hq : q < 4096 then g ⟨q, hq⟩ else 0) 4 1024
  have lhs : ∀ k ∈ Finset.range 4, ∑ j : Fin 1024, g (tileRow (kOf k) j)
      = ∑ j : Fin 1024, (fun q : ℕ => if hq : q < 4096 then g ⟨q, hq⟩ else 0) (1024 * k + j.val) := by
    intro k hk
    have hk4 : k < 4 := Finset.mem_range.mp hk
    refine Finset.sum_congr rfl fun j _ => ?_
    have hj : j.val < 1024 := j.isLt
    have hq : 1024 * k + j.val < 4096 := by omega
    show _ = if hq : 1024 * k + j.val < 4096 then g ⟨1024 * k + j.val, hq⟩ else 0
    rw [dif_pos hq]
    exact congrArg g (Fin.ext (by show 1024 * (k % 4) + j.val = 1024 * k + j.val; rw [Nat.mod_eq_of_lt hk4]))
  rw [show (3 + 1 : ℕ) = 4 from rfl, Finset.sum_congr rfl lhs, key]
  show ∑ q : Fin 4096, (if hq : q.val < 4096 then g ⟨q.val, hq⟩ else 0) = _
  exact Finset.sum_congr rfl fun q _ => dif_pos q.isLt

/-- The row share of grid point `n` and the column share of batch `b`, total in their index. -/
def rowN (c : Dev nD) (n : ℕ) : EReal := rowE (Xc m c) (Rc m c) (bOf n) (kOf n)
def colN (c : Dev nD) (b : ℕ) : EReal := colE (Xc m c) (Rc m c) ⟨b % 32, Nat.mod_lt _ (by norm_num)⟩

/-- The total after grid point `n`: the row shares of the points up to `n` and the column shares of the
    batches finished by then. -/
def totN (c : Dev nD) (n : ℕ) : EReal :=
  ∑ s ∈ Finset.range (n + 1), rowN m c s + ∑ b ∈ Finset.range ((n + 1) / 4), colN m c b

theorem totN_zero (c : Dev nD) : totN m c 0 = rowN m c 0 := by
  unfold totN
  rw [Finset.sum_range_one, show (0 + 1) / 4 = 0 from rfl, Finset.sum_range_zero, add_zero]

theorem totN_succ (c : Dev nD) (n : ℕ) (h : ¬(n + 1) % 4 = 3) :
    totN m c (n + 1) = totN m c n + rowN m c (n + 1) := by
  unfold totN
  have e : (n + 1 + 1) / 4 = (n + 1) / 4 := by omega
  rw [e, Finset.sum_range_succ (fun s => rowN m c s) (n + 1)]
  exact add_right_comm _ _ _

theorem totN_succ_last (c : Dev nD) (n : ℕ) (h : (n + 1) % 4 = 3) :
    totN m c (n + 1) = (totN m c n + rowN m c (n + 1)) + colN m c ((n + 1) / 4) := by
  unfold totN
  have e : (n + 1 + 1) / 4 = (n + 1) / 4 + 1 := by omega
  rw [e, Finset.sum_range_succ (fun s => rowN m c s) (n + 1), Finset.sum_range_succ (fun b => colN m c b) ((n + 1) / 4)]
  have four : ∀ A R C D : EReal, (A + R) + (C + D) = ((A + C) + R) + D := fun A R C D => by
    rw [add_add_add_comm, ← add_assoc]
  exact four _ _ _ _

/-! ## One point's shares, from its two blocks -/

/-- A point's row share: the 1024 row terms of its two blocks, summed, over 4096. -/
theorem tile_row (c : Dev nD) (t : Fin cfg0.N) :
    Ideal.div (∑ j : Fin 1024, termE (fun d : Fin 512 => xblk m c t (ix3 0 j d)) (fun d : Fin 512 => rblk m c t (ix3 0 j d))) w4096
      = rowN m c t.val := by
  simp only [xblk_apply, rblk_apply]
  rfl

/-- The tuple of contents `p` is what the closed forms say after grid point `n`. -/
def Good (c : Dev nD) (n : ℕ) (p : Vec Ideal S1x1 .f32 × Vec Ideal S1x512 .f32 × Vec Ideal S1x512 .f32 × Vec Ideal S1x512 .f32) : Prop :=
  (∀ y : S1x1.Idx, p.1 y = totN m c n)
  ∧ (∀ d : Fin 512, p.2.1 (ix2 0 d) = accG (fun r => Xc m c (bOf n) r d * Xc m c (bOf n) r d) n)
  ∧ (∀ d : Fin 512, p.2.2.1 (ix2 0 d) = accG (fun r => Rc m c (bOf n) r d * Rc m c (bOf n) r d) n)
  ∧ (∀ d : Fin 512, p.2.2.2 (ix2 0 d) = accG (fun r => Xc m c (bOf n) r d * Rc m c (bOf n) r d) n)

/-- The very first tile. -/
theorem good_A (c : Dev nD) (t : Fin cfg0.N) (ht : t.val = 0) :
    Good m c 0 (k0_pay14 (xblk m c t) (rblk m c t) (k0_pay5 (F := Ideal)),
      k0_pay1 (k0_pay11 (xblk m c t)) (k0_pay6 (F := Ideal)),
      k0_pay2 (k0_pay12 (rblk m c t)) (k0_pay7 (F := Ideal)),
      k0_pay3 (k0_pay13 (xblk m c t) (rblk m c t)) (k0_pay8 (F := Ideal))) := by
  refine ⟨fun y => ?_, fun d => ?_, fun d => ?_, fun d => ?_⟩
  · show k0_pay14 (xblk m c t) (rblk m c t) (k0_pay5 (F := Ideal)) y = _
    rw [pay14_apply, pay5_apply, zero_add, tile_row, totN_zero, ht]
  · show k0_pay1 (k0_pay11 (xblk m c t)) (k0_pay6 (F := Ideal)) (ix2 0 d) = _
    rw [pay1_apply, pay6_apply, zero_add, accG_first _ 0 rfl]
    simp only [xblk_apply, ht]
  · show k0_pay2 (k0_pay12 (rblk m c t)) (k0_pay7 (F := Ideal)) (ix2 0 d) = _
    rw [pay2_apply, pay7_apply, zero_add, accG_first _ 0 rfl]
    simp only [rblk_apply, ht]
  · show k0_pay3 (k0_pay13 (xblk m c t) (rblk m c t)) (k0_pay8 (F := Ideal)) (ix2 0 d) = _
    rw [pay3_apply, pay8_apply, zero_add, accG_first _ 0 rfl]
    simp only [xblk_apply, rblk_apply, ht]

/-- A later batch's first tile. -/
theorem good_D (c : Dev nD) (t : Fin cfg0.N) (n : ℕ) (ht : t.val = n + 1) (h1 : (n + 1) % 4 = 0)
    (p : Vec Ideal S1x1 .f32 × Vec Ideal S1x512 .f32 × Vec Ideal S1x512 .f32 × Vec Ideal S1x512 .f32)
    (hp : Good m c n p) :
    Good m c (n + 1) (k0_pay14 (xblk m c t) (rblk m c t) p.1,
      k0_pay1 (k0_pay11 (xblk m c t)) (k0_pay6 (F := Ideal)),
      k0_pay2 (k0_pay12 (rblk m c t)) (k0_pay7 (F := Ideal)),
      k0_pay3 (k0_pay13 (xblk m c t) (rblk m c t)) (k0_pay8 (F := Ideal))) := by
  refine ⟨fun y => ?_, fun d => ?_, fun d => ?_, fun d => ?_⟩
  · show k0_pay14 (xblk m c t) (rblk m c t) p.1 y = _
    rw [pay14_apply, hp.1 y, tile_row, ht, totN_succ m c n (by omega)]
  · show k0_pay1 (k0_pay11 (xblk m c t)) (k0_pay6 (F := Ideal)) (ix2 0 d) = _
    rw [pay1_apply, pay6_apply, zero_add, accG_first _ (n + 1) h1]
    simp only [xblk_apply, ht]
  · show k0_pay2 (k0_pay12 (rblk m c t)) (k0_pay7 (F := Ideal)) (ix2 0 d) = _
    rw [pay2_apply, pay7_apply, zero_add, accG_first _ (n + 1) h1]
    simp only [rblk_apply, ht]
  · show k0_pay3 (k0_pay13 (xblk m c t) (rblk m c t)) (k0_pay8 (F := Ideal)) (ix2 0 d) = _
    rw [pay3_apply, pay8_apply, zero_add, accG_first _ (n + 1) h1]
    simp only [xblk_apply, rblk_apply, ht]

/-- Within a batch the batch of the next point is the same. -/
theorem bOf_succ (n : ℕ) (h1 : ¬(n + 1) % 4 = 0) : bOf (n + 1) = bOf n :=
  Fin.ext (by show (n + 1) / 4 % 32 = n / 4 % 32; have : (n + 1) / 4 = n / 4 := by omega
              rw [this])

/-- The three accumulators after a tile that is not a batch's first. -/
theorem acc_step (c : Dev nD) (t : Fin cfg0.N) (n : ℕ) (ht : t.val = n + 1) (h1 : ¬(n + 1) % 4 = 0)
    (p : Vec Ideal S1x1 .f32 × Vec Ideal S1x512 .f32 × Vec Ideal S1x512 .f32 × Vec Ideal S1x512 .f32)
    (hp : Good m c n p) (d : Fin 512) :
    k0_pay1 (k0_pay11 (xblk m c t)) p.2.1 (ix2 0 d) = accG (fun r => Xc m c (bOf (n + 1)) r d * Xc m c (bOf (n + 1)) r d) (n + 1)
    ∧ k0_pay2 (k0_pay12 (rblk m c t)) p.2.2.1 (ix2 0 d) = accG (fun r => Rc m c (bOf (n + 1)) r d * Rc m c (bOf (n + 1)) r d) (n + 1)
    ∧ k0_pay3 (k0_pay13 (xblk m c t) (rblk m c t)) p.2.2.2 (ix2 0 d) = accG (fun r => Xc m c (bOf (n + 1)) r d * Rc m c (bOf (n + 1)) r d) (n + 1) := by
  refine ⟨?_, ?_, ?_⟩
  · rw [pay1_apply, hp.2.1 d, accG_succ _ n h1, bOf_succ n h1]
    simp only [xblk_apply, ht, bOf_succ n h1]
  · rw [pay2_apply, hp.2.2.1 d, accG_succ _ n h1, bOf_succ n h1]
    simp only [rblk_apply, ht, bOf_succ n h1]
  · rw [pay3_apply, hp.2.2.2 d, accG_succ _ n h1, bOf_succ n h1]
    simp only [xblk_apply, rblk_apply, ht, bOf_succ n h1]

/-- A middle tile. -/
theorem good_B (c : Dev nD) (t : Fin cfg0.N) (n : ℕ) (ht : t.val = n + 1) (h1 : ¬(n + 1) % 4 = 0) (h2 : ¬(n + 1) % 4 = 3)
    (p : Vec Ideal S1x1 .f32 × Vec Ideal S1x512 .f32 × Vec Ideal S1x512 .f32 × Vec Ideal S1x512 .f32)
    (hp : Good m c n p) :
    Good m c (n + 1) (k0_pay14 (xblk m c t) (rblk m c t) p.1,
      k0_pay1 (k0_pay11 (xblk m c t)) p.2.1,
      k0_pay2 (k0_pay12 (rblk m c t)) p.2.2.1,
      k0_pay3 (k0_pay13 (xblk m c t) (rblk m c t)) p.2.2.2) := by
  refine ⟨fun y => ?_, fun d => (acc_step m c t n ht h1 p hp d).1, fun d => (acc_step m c t n ht h1 p hp d).2.1,
    fun d => (acc_step m c t n ht h1 p hp d).2.2⟩
  show k0_pay14 (xblk m c t) (rblk m c t) p.1 y = _
  rw [pay14_apply, hp.1 y, tile_row, ht, totN_succ m c n h2]

/-- A batch's last tile: the column share is the 512 column terms of the whole batch. -/
theorem good_C (c : Dev nD) (t : Fin cfg0.N) (n : ℕ) (ht : t.val = n + 1) (h1 : ¬(n + 1) % 4 = 0) (h2 : (n + 1) % 4 = 3)
    (p : Vec Ideal S1x1 .f32 × Vec Ideal S1x512 .f32 × Vec Ideal S1x512 .f32 × Vec Ideal S1x512 .f32)
    (hp : Good m c n p) :
    Good m c (n + 1) (k0_pay4 (k0_pay1 (k0_pay11 (xblk m c t)) p.2.1) (k0_pay2 (k0_pay12 (rblk m c t)) p.2.2.1)
        (k0_pay3 (k0_pay13 (xblk m c t) (rblk m c t)) p.2.2.2) (k0_pay14 (xblk m c t) (rblk m c t) p.1),
      k0_pay1 (k0_pay11 (xblk m c t)) p.2.1,
      k0_pay2 (k0_pay12 (rblk m c t)) p.2.2.1,
      k0_pay3 (k0_pay13 (xblk m c t) (rblk m c t)) p.2.2.2) := by
  refine ⟨fun y => ?_, fun d => (acc_step m c t n ht h1 p hp d).1, fun d => (acc_step m c t n ht h1 p hp d).2.1,
    fun d => (acc_step m c t n ht h1 p hp d).2.2⟩
  show k0_pay4 _ _ _ (k0_pay14 (xblk m c t) (rblk m c t) p.1) y = _
  rw [pay4_apply, pay14_apply, hp.1 y, tile_row, ht, totN_succ_last m c n h2]
  congr 1
  show _ = colE (Xc m c) (Rc m c) ⟨(n + 1) / 4 % 32, _⟩
  unfold colE
  congr 1
  refine Finset.sum_congr rfl fun d _ => ?_
  rw [(acc_step m c t n ht h1 p hp d).1, (acc_step m c t n ht h1 p hp d).2.1, (acc_step m c t n ht h1 p hp d).2.2,
    accG_last _ (n + 1) h2, accG_last _ (n + 1) h2, accG_last _ (n + 1) h2]
  rfl

/-! ## Every point -/

/-- What the staging buffer and the accumulators hold after every grid point is what the closed forms say. -/
theorem inv (c : Dev nD) : ∀ (n : ℕ) (h : n < cfg0.N), Good m c n (outsAt0 m c n h)
  | 0, h => by
    rw [show outsAt0 m c 0 h = _ from step_A m c ⟨0, h⟩ rfl rfl (by show ¬(0 : ℕ) % 4 = 3; decide)]
    exact good_A m c ⟨0, h⟩ rfl
  | n + 1, h => by
    have hN : n + 1 < 128 := lt_of_lt_of_eq h (show cfg0.N = 128 from N_0)
    have h0 : ¬(n + 1) % 128 = 0 := by omega
    have ih := inv c n (Nat.lt_of_succ_lt h)
    by_cases h1 : (n + 1) % 4 = 0
    · rw [show outsAt0 m c (n + 1) h = _ from step_D m c ⟨n + 1, h⟩ h0 h1 (by show ¬(n + 1) % 4 = 3; omega)]
      exact good_D m c ⟨n + 1, h⟩ n rfl h1 _ ih
    · by_cases h2 : (n + 1) % 4 = 3
      · rw [show outsAt0 m c (n + 1) h = _ from step_C m c ⟨n + 1, h⟩ h0 h1 h2]
        exact good_C m c ⟨n + 1, h⟩ n rfl h1 h2 _ ih
      · rw [show outsAt0 m c (n + 1) h = _ from step_B m c ⟨n + 1, h⟩ h0 h1 h2]
        exact good_B m c ⟨n + 1, h⟩ n rfl h1 h2 _ ih

end Cert.KernelIdeal.SplK

end
-- ==== Proof.KValue.lean ====
/-
  The tiled program's run, read back: its one result is `kernelE` of the two argument arrays.

  The output block never moves, so its array is written back once, after the last grid point, with the total
  the staging buffer then holds: every tile's row share and every batch's column share. The host then reads
  that one entry as a scalar and multiplies it by the word of -1/32.
-/
import proofs.«173612_j10213432230325_1_alg».proof.Proof.KFold
import Idealize.ShloMosaic.Lib.StableHlo.Run

noncomputable section

namespace Cert.KernelIdeal.SplK

open Cert.KernelIdeal Cert.KernelIdeal.Gen Cert.Spl
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The total after the last point -/

/-- The 128 points' row shares are the 32 batches' four tiles' shares. -/
theorem sum_rows (c : Dev nD) :
    ∑ s ∈ Finset.range 128, rowN m c s = ∑ b : Fin 32, ∑ k : Fin 4, rowE (Xc m c) (Rc m c) b k := by
  rw [← Fin.sum_univ_eq_sum_range (fun s => rowN m c s) 128]
  rw [show (128 : ℕ) = 32 * 4 from rfl, TileSum.sum_fin_mul (fun s => rowN m c s) 32 4]
  refine Finset.sum_congr rfl fun b _ => Finset.sum_congr rfl fun k _ => ?_
  have hb : b.val < 32 := b.isLt
  have hk : k.val < 4 := k.isLt
  unfold rowN
  have e1 : bOf (4 * b.val + k.val) = b := Fin.ext (by show (4 * b.val + k.val) / 4 % 32 = b.val; omega)
  have e2 : kOf (4 * b.val + k.val) = k := Fin.ext (by show (4 * b.val + k.val) % 4 = k.val; omega)
  rw [e1, e2]

/-- The 32 batches' column shares. -/
theorem sum_cols (c : Dev nD) :
    ∑ b ∈ Finset.range 32, colN m c b = ∑ b : Fin 32, colE (Xc m c) (Rc m c) b := by
  rw [← Fin.sum_univ_eq_sum_range (fun b => colN m c b) 32]
  refine Finset.sum_congr rfl fun b _ => ?_
  unfold colN
  exact congrArg (colE (Xc m c) (Rc m c)) (Fin.ext (Nat.mod_eq_of_lt b.isLt))

/-- After the last point the total is every tile's and every batch's share. -/
theorem totN_last (c : Dev nD) :
    totN m c 127 = (∑ b : Fin 32, ∑ k : Fin 4, rowE (Xc m c) (Rc m c) b k) + ∑ b : Fin 32, colE (Xc m c) (Rc m c) b := by
  unfold totN
  rw [show (127 + 1 : ℕ) = 128 from rfl, show (128 / 4 : ℕ) = 32 from rfl, sum_rows, sum_cols]

/-! ## The output's array after the region -/

/-- The one entry of the output's array, as contents of that array. -/
abbrev result (c : Dev nD) : Buf (Elt Ideal) ((c : Thread nD τ).loc main_v0) := fun _ => totN m c 127

/-- The output's block index is (0, 0) at every point, decided over the grid. -/
theorem idx_facts2 : ∀ t : Fin cfg0.N, win0_2.index t 0 = 0 ∧ win0_2.index t 1 = 0 :=
  (by decide +kernel : ∀ t : Fin grid0.N, win0_2.index t 0 = 0 ∧ win0_2.index t 1 = 0)

/-- The one write-back, after the last point, writes the total: block (0, 0) of a [1, 1] array is the array. -/
theorem flushed_eq (c : Dev nD) (t : Fin cfg0.N) (hf : (cfg0.win 2).flush t = true) :
    (dats m 0 c).flushed 2 t = ((cfg0.win 2).blk t).view.read (Elt Ideal) (result m c) := by
  have hN : t.val < 128 := lt_of_lt_of_eq t.isLt (show cfg0.N = 128 from N_0)
  have h127 : t.val = 127 := by have := (flush0_2 t).mp hf; omega
  show (cfg0.win 2).cut (grid0.coords t) ((dats m 0 c).after 2 t) = _
  rw [after0_2]
  have hval : (outsAt0 m c t.val t.isLt).1 = fun _ => totN m c 127 :=
    funext fun y => by rw [(inv m c t.val t.isLt).1 y, h127]
  rw [hval]
  have hz' : (fun a => win0_2.index t a * main_v0.ty.shape.size a) = fun _ => 0 :=
    funext fun a => by
      match a with
      | ⟨0, _⟩ => show win0_2.index t 0 * 1 = 0; rw [(idx_facts2 t).1]
      | ⟨1, _⟩ => show win0_2.index t 1 * 1 = 0; rw [(idx_facts2 t).2]
  exact (Memref.read_access_unit_zero (Elt Ideal) main_v0 hz' (fun a => by rw [congrFun hz' a]; simp) (result m c)).symm

/-- The last grid point. -/
abbrev tLast : Fin cfg0.N := ⟨127, by rw [show cfg0.N = 128 from N_0]; decide⟩

/-- So the output's array ends holding the total. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-! ## The host's three operations after the region -/

/-- The scalar result: the array's one entry times the word of -1/32. -/
theorem tail_eq (c : Dev nD) :
    Pipeline.afterTail₀ cfgs (dats m) 0 (V0 m) [hostOps1] c main_v2 = fun _ => wNeg32nd * totN m c 127 := by
  unfold Pipeline.afterTail₀
  show StableHlo.after hostOps1 _ (Proc.devRef .tc main_v2) = _
  after_results
  rw [(Pipeline.withArrays_arr spec0 launch0.win.arr_inj c _ _ 2).trans (final_o m c)]
  rfl

/-! ## The run -/

theorem main_v2_rest : main_v2 ∈ Pipeline.restRefs sig cfg0.spec :=
  Pipeline.mem_restRefs_of main_v2 rfl (by decide)

/-- Every weakly fair execution of the tiled program ends with its result at `kernelE` of the arguments'
    launch contents and the arguments unchanged. -/
theorem run : θ_run defs (onTc (τ := τ) (main (F := Ideal))) ⟨m, fun _ => 0, ρ⟩ fun r => ∀ c : Dev nD,
      r.2.mem ((c.tc : Thread nD τ).loc main_v2)
        = (fun _ => kernelE (cur (m ((c.tc : Thread nD τ).loc main_arg0))) (cur (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 main_v2_rest).trans ((tail_eq m c).trans (funext fun _ => by rw [totN_last]; rfl)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.SplK

end
-- ==== Proof.RefValue.lean ====
/-
  The plain program's run, read back: its one result is `refE` of the two argument arrays.
-/
import proofs.«173612_j10213432230325_1_alg».proof.Proof.Gen.ReferenceIdeal.Read
import proofs.«173612_j10213432230325_1_alg».proof.Proof.SplSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Spl
open Idealize.ShloMosaic Idealize.ShloMosaic.TcCoe Idealize.SL.Sem

section Stages

open Idealize.ShloMosaic.ValueIdx

/-! ## Indices: a rank-1 index set is its coordinate's range -/

/-- A rank-1 index set is the range of its one coordinate … -/
def idxEquiv1 {n : Nat} : (⟨1, ![n]⟩ : Shape).Idx ≃ Fin n where
  toFun j := j 0
  invFun b := ix1 b
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ b : Fin n, f (ix1 b) := by
  rw [← Equiv.sum_comp (idxEquiv1 (n := n)).symm f]
  rfl

/-! ## The sum over rows and columns of a batch -/

/-- Dropping axes 1 and 2 of (b, n, d) leaves (b); -/
theorem drop12_ix3 (b : Fin 32) (n : Fin 4096) (d : Fin 512) :
    reducesTo_S32x4096x512_S32_d1_2.drop (ix3 b n d) = ix1 b := by
  funext a
  match a with
  | ⟨0, _⟩ => rfl

/-- an index that drops to (b) is (b, its row, its column); -/
theorem eq_ix3_of_drop12 (i : S32x4096x512.Idx) (b : Fin 32)
    (h : reducesTo_S32x4096x512_S32_d1_2.drop i = ix1 b) : i = ix3 b (i 1) (i 2) := by
  have h0 : i 0 = b := congrFun h 0
  subst h0
  exact eq_ix3 i

/-- (row, column) ↦ (b, row, column) is one-to-one; -/
def pairEmb (b : Fin 32) : Fin 4096 × Fin 512 ↪ S32x4096x512.Idx :=
  ⟨fun p => ix3 b p.1 p.2, fun p q h => Prod.ext (congrFun h 1) (congrFun h 2)⟩

/-- so the indices summed at (b) are the image of all (row, column) pairs. -/
theorem filter_drop12 (b : Fin 32) :
    Finset.univ.filter (fun i : S32x4096x512.Idx => reducesTo_S32x4096x512_S32_d1_2.drop i = ix1 b)
      = (Finset.univ : Finset (Fin 4096 × Fin 512)).map (pairEmb b) := by
  ext i
  simp only [Finset.mem_filter, Finset.mem_univ, true_and, Finset.mem_map, pairEmb, Function.Embedding.coeFn_mk]
  exact ⟨fun h => ⟨(i 1, i 2), (eq_ix3_of_drop12 i b h).symm⟩, fun ⟨p, hp⟩ => hp ▸ drop12_ix3 b p.1 p.2⟩

/-- The sum over axes 1 and 2 at (b): the initial value plus the double sum over rows and columns. -/
theorem hostReduceAdd12_apply (x : S32x4096x512.Idx → EReal) (init : EReal) (b : Fin 32) :
    Ideal.hostReduceAdd reducesTo_S32x4096x512_S32_d1_2 x init (ix1 b)
      = init + ∑ n : Fin 4096, ∑ d : Fin 512, x (ix3 b n d) := by
  unfold Ideal.hostReduceAdd
  rw [filter_drop12, Finset.sum_map, Fintype.sum_prod_type]
  rfl

/-! ## The row half -/

/-- Reading a row's norm back from (b, n, d): the summed entries are (b, n, k). -/
theorem idx_row (b : Fin 32) (n : Fin 4096) (d k : Fin 512) :
    idx_main_v1 (idx_main_v2 (idx_main_v6 (ix3 b n d))) k = ix3 b n k := by
  funext a; match a with | ⟨0, _⟩ => rfl | ⟨1, _⟩ => rfl | ⟨2, _⟩ => rfl

/-- An entry of the first array over its row's thresholded norm. -/
theorem v7_at (x0 : (⟨S32x4096x512, .f32⟩ : BufTy).Contents (Elt Ideal)) (b : Fin 32) (n : Fin 4096) (d : Fin 512) :
    val_main_v7 (F := Ideal) x0 (ix3 b n d)
      = Ideal.div (x0 (ix3 b n d)) (max (Ideal.sqrt (∑ d' : Fin 512, x0 (ix3 b n d') * x0 (ix3 b n d'))) epsW) := by
  rw [val_main_v7_apply, val_main_v6_apply, val_main_v5_apply, val_main_v4_apply, val_main_v3_apply, val_main_v2_apply,
    val_main_v1_apply]
  simp only [val_main_cst_0_apply, val_main_cst_apply, val_main_v0_apply, Ideal.hostDivf_def, Ideal.maximumf_def,
    Ideal.hostUnary_sqrt_def, Ideal.ofBits_def, Ideal.mulf_def, Ideal.ofBits_zero_f32, zero_add, idx_row]

/-- The second array's stages are the first's, at the other argument. -/
theorem v15_eq_v7 (x1 : (⟨S32x4096x512, .f32⟩ : BufTy).Contents (Elt Ideal)) :
    val_main_v15 (F := Ideal) x1 = val_main_v7 (F := Ideal) x1 := rfl

/-- A batch's row quotients multiplied and summed, over 4096, times one. -/
theorem v21_at (x0 x1 : (⟨S32x4096x512, .f32⟩ : BufTy).Contents (Elt Ideal)) (b : Fin 32) :
    val_main_v21 (F := Ideal) x0 x1 (ix1 b)
      = Ideal.div (∑ n : Fin 4096, ∑ d : Fin 512,
          Ideal.div (x0 (ix3 b n d)) (max (Ideal.sqrt (∑ d' : Fin 512, x0 (ix3 b n d') * x0 (ix3 b n d'))) epsW)
            * Ideal.div (x1 (ix3 b n d)) (max (Ideal.sqrt (∑ d' : Fin 512, x1 (ix3 b n d') * x1 (ix3 b n d'))) epsW)) w4096
        * w1 := by
  rw [val_main_v21_apply, val_main_v20_apply, val_main_v19_apply, val_main_v18_apply]
  have h17 : val_main_v17 (F := Ideal) x0 x1 (ix1 b)
      = ∑ n : Fin 4096, ∑ d : Fin 512, val_main_v16 (F := Ideal) x0 x1 (ix3 b n d) := by
    unfold val_main_v17
    generalize val_main_v16 (F := Ideal) x0 x1 = y
    simp only [Host.reduceAdd, Ideal.hostReduceAdd_def]
    rw [hostReduceAdd12_apply]
    simp only [val_main_cst_3_apply, Ideal.ofBits_def, Ideal.ofBits_zero_f32, zero_add]
  rw [h17]
  simp only [val_main_v16_apply, v15_eq_v7, v7_at, val_main_cst_4_apply, val_main_cst_5_apply, Ideal.hostDivf_def,
    Ideal.ofBits_def, Ideal.mulf_def]

/-! ## The column half -/

/-- Reading a column's norm back from (b, n, d): the summed entries are (b, k, d). -/
theorem idx_col (b : Fin 32) (n k : Fin 4096) (d : Fin 512) :
    idx_main_v23 (idx_main_v24 (idx_main_v28 (ix3 b n d))) k = ix3 b k d := by
  funext a; match a with | ⟨0, _⟩ => rfl | ⟨1, _⟩ => rfl | ⟨2, _⟩ => rfl

/-- An entry of the first array over its column's thresholded norm. -/
theorem v29_at (x0 : (⟨S32x4096x512, .f32⟩ : BufTy).Contents (Elt Ideal)) (b : Fin 32) (n : Fin 4096) (d : Fin 512) :
    val_main_v29 (F := Ideal) x0 (ix3 b n d)
      = Ideal.div (x0 (ix3 b n d)) (max (Ideal.sqrt (∑ n' : Fin 4096, x0 (ix3 b n' d) * x0 (ix3 b n' d))) epsW) := by
  rw [val_main_v29_apply, val_main_v28_apply, val_main_v27_apply, val_main_v26_apply, val_main_v25_apply,
    val_main_v24_apply, val_main_v23_apply]
  simp only [val_main_cst_7_apply, val_main_cst_6_apply, val_main_v22_apply, Ideal.hostDivf_def, Ideal.maximumf_def,
    Ideal.hostUnary_sqrt_def, Ideal.ofBits_def, Ideal.mulf_def, Ideal.ofBits_zero_f32, zero_add, idx_col]

/-- The second array's stages are the first's, at the other argument. -/
theorem v37_eq_v29 (x1 : (⟨S32x4096x512, .f32⟩ : BufTy).Contents (Elt Ideal)) :
    val_main_v37 (F := Ideal) x1 = val_main_v29 (F := Ideal) x1 := rfl

/-- A batch's column quotients multiplied and summed, over 512, times one. -/
theorem v43_at (x0 x1 : (⟨S32x4096x512, .f32⟩ : BufTy).Contents (Elt Ideal)) (b : Fin 32) :
    val_main_v43 (F := Ideal) x0 x1 (ix1 b)
      = Ideal.div (∑ n : Fin 4096, ∑ d : Fin 512,
          Ideal.div (x0 (ix3 b n d)) (max (Ideal.sqrt (∑ n' : Fin 4096, x0 (ix3 b n' d) * x0 (ix3 b n' d))) epsW)
            * Ideal.div (x1 (ix3 b n d)) (max (Ideal.sqrt (∑ n' : Fin 4096, x1 (ix3 b n' d) * x1 (ix3 b n' d))) epsW)) w512
        * w1 := by
  rw [val_main_v43_apply, val_main_v42_apply, val_main_v41_apply, val_main_v40_apply]
  have h39 : val_main_v39 (F := Ideal) x0 x1 (ix1 b)
      = ∑ n : Fin 4096, ∑ d : Fin 512, val_main_v38 (F := Ideal) x0 x1 (ix3 b n d) := by
    unfold val_main_v39
    generalize val_main_v38 (F := Ideal) x0 x1 = y
    simp only [Host.reduceAdd, Ideal.hostReduceAdd_def]
    rw [hostReduceAdd12_apply]
    simp only [val_main_cst_10_apply, Ideal.ofBits_def, Ideal.ofBits_zero_f32, zero_add]
  rw [h39]
  simp only [val_main_v38_apply, v37_eq_v29, v29_at, val_main_cst_11_apply, val_main_cst_12_apply, Ideal.hostDivf_def,
    Ideal.ofBits_def, Ideal.mulf_def]

end Stages

/-- The last stage of the plain program, at its one index, is `refE` of the arguments read by coordinates:
    each norm is the square root of a row's (a column's) sum of squares against the threshold, each entry is
    divided by its norm, the quotients are multiplied and summed over a batch's rows and columns, and the two
    halves are divided, negated and added as `refE` spells. -/
theorem val_v50_eq_refE (x0 x1 : (⟨S32x4096x512, .f32⟩ : BufTy).Contents (Elt Ideal)) :
    val_main_v50 (F := Ideal) x0 x1 = fun _ => refE (cur x0) (cur x1) := by
  funext i
  rw [val_main_v50_apply, val_main_v46_apply, val_main_v45_apply, val_main_v44_apply, val_main_v49_apply,
    val_main_v48_apply, val_main_v47_apply, sum_idx1, sum_idx1]
  simp only [v21_at, v43_at, val_main_cst_13_apply, val_main_cst_14_apply, val_main_cst_15_apply, val_main_cst_16_apply,
    Ideal.addf_def, Ideal.hostDivf_def, Ideal.hostNegf_def, Ideal.negf_def, Ideal.ofBits_def, Ideal.ofBits_zero_f32,
    zero_add]
  rfl

/-- Every weakly fair execution of the plain program ends with its result at `refE` of the arguments' launch
    contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50)
        = (fun _ => refE (cur (m ((c.tc : Thread nD τ).loc main_arg0))) (cur (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((Read.val_main_v50_eq _ _).trans (val_v50_eq_refE _ _)), (h c).2⟩)
    (Cert.ReferenceIdeal.Value.run (F := Ideal) m ρ)

end Cert.ReferenceIdeal.RefValue

end
-- ==== Proof.SplWords.lean ====
/-
  The words of the program's constants as real numbers, and the operations of the extended reals on
  arguments that are real: a finite sum, a quotient by a nonzero real, the square root of a nonnegative
  real, and the term of two real vectors.
-/
import proofs.«173612_j10213432230325_1_alg».proof.Proof.SplSpec

noncomputable section

namespace Cert.Spl

open Idealize.ShloMosaic

/-- The threshold's word denotes a positive real number. -/
theorem eps_real : ∃ e : ℝ, 0 < e ∧ epsW = (e : EReal) := by
  refine ⟨((2 ^ 23 + 834764 : ℕ) : ℝ) * (2 : ℝ) ^ ((87 : ℤ) - 127 - 23), by positivity, ?_⟩
  simp [epsW, Ideal.ofBits, Ideal.ieee, -EReal.coe_mul]

theorem w4096_eq : w4096 = ((4096 : ℝ) : EReal) := by
  simp [w4096, Ideal.ofBits, Ideal.ieee, -EReal.coe_mul]; norm_num

theorem w512_eq : w512 = ((512 : ℝ) : EReal) := by
  simp [w512, Ideal.ofBits, Ideal.ieee, -EReal.coe_mul]; norm_num

theorem w32_eq : w32 = ((32 : ℝ) : EReal) := by
  simp [w32, Ideal.ofBits, Ideal.ieee, -EReal.coe_mul]; norm_num

theorem w1_eq : w1 = ((1 : ℝ) : EReal) := by
  simp [w1, Ideal.ofBits, Ideal.ieee, -EReal.coe_mul]; norm_num

theorem wNeg32nd_eq : wNeg32nd = ((-(1 / 32) : ℝ) : EReal) := by
  simp [wNeg32nd, Ideal.ofBits, Ideal.ieee, -EReal.coe_mul]; norm_num

/-- The cast of a finite sum of reals is the sum of the casts. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A real over a nonzero real, on the extended reals, is the real quotient. -/
theorem div_coe_coe (a b : ℝ) (hb : b ≠ 0) : Ideal.div (a : EReal) (b : EReal) = ((a / b : ℝ) : EReal) := by
  rw [Ideal.div_coe hb, ← EReal.coe_mul, mul_one_div]

/-- The square root of a nonnegative real, on the extended reals, is the real square root. -/
theorem sqrt_coe_nonneg (a : ℝ) (ha : 0 ≤ a) : Ideal.sqrt (a : EReal) = ((Real.sqrt a : ℝ) : EReal) := by
  rw [Ideal.sqrt_coe, if_neg (not_lt.mpr ha)]

/-- The cast of the larger of two reals is the larger of the casts: the cast is monotone. -/
theorem coe_max (a b : ℝ) : ((max a b : ℝ) : EReal) = max (a : EReal) (b : EReal) :=
  EReal.coe_strictMono.monotone.map_max

/-- The term of two real vectors, on the extended reals, is the real term: the sums of squares are
    nonnegative and the thresholded norms are at least the positive threshold, so nothing leaves the reals. -/
theorem termE_coe {ι : Type} [Fintype ι] (e : ℝ) (he : 0 < e) (hε : epsW = (e : EReal)) (u v : ι → ℝ) :
    termE (fun i => (u i : EReal)) (fun i => (v i : EReal)) = ((term e u v : ℝ) : EReal) := by
  have hu : 0 ≤ ∑ i, u i * u i := Finset.sum_nonneg fun i _ => mul_self_nonneg _
  have hv : 0 ≤ ∑ i, v i * v i := Finset.sum_nonneg fun i _ => mul_self_nonneg _
  have hpos : max (Real.sqrt (∑ i, u i * u i)) e * max (Real.sqrt (∑ i, v i * v i)) e ≠ 0 :=
    (mul_pos (lt_max_of_lt_right he) (lt_max_of_lt_right he)).ne'
  unfold termE term
  simp only [← EReal.coe_mul, ← coe_sum, hε]
  rw [sqrt_coe_nonneg _ hu, sqrt_coe_nonneg _ hv, ← coe_max, ← coe_max, ← EReal.coe_mul,
    div_coe_coe _ _ hpos]

end Cert.Spl

end
-- ==== Proof.SplMathK.lean ====
/-
  The tiled program's result on real entries is the loss.
-/
import proofs.«173612_j10213432230325_1_alg».proof.Proof.SplWords
import proofs.«173612_j10213432230325_1_alg».proof.Proof.LibTileSum

noncomputable section

namespace Cert.Spl

open Idealize.ShloMosaic

/-- The four tiles of 1024 rows are the 4096 rows: a sum over the rows is the sum over the tiles of each
    tile's sum. -/
theorem sum_tiles (g : Fin 4096 → ℝ) :
    ∑ k : Fin 4, ∑ j : Fin 1024, g (tileRow k j) = ∑ n : Fin 4096, g n := by
  have key := TileSum.sum_fin_mul (fun m : ℕ => if h : m < 4096 then g ⟨m, h⟩ else 0) 4 1024
  have hL : ∑ k : Fin (4 * 1024), (fun m : ℕ => if h : m < 4096 then g ⟨m, h⟩ else 0) k.val
      = ∑ n : Fin 4096, g n :=
    Finset.sum_congr rfl fun n _ => dif_pos n.isLt
  have hR : ∑ s : Fin 4, ∑ j : Fin 1024,
        (fun m : ℕ => if h : m < 4096 then g ⟨m, h⟩ else 0) (1024 * s.val + j.val)
      = ∑ k : Fin 4, ∑ j : Fin 1024, g (tileRow k j) :=
    Finset.sum_congr rfl fun k _ => Finset.sum_congr rfl fun j _ => dif_pos (tileRow k j).isLt
  rw [← hR, ← key, hL]

/-- One tile's contribution on real entries: the tile's 1024 real terms summed, over 4096. -/
theorem rowE_coe (e : ℝ) (he : 0 < e) (hε : epsW = (e : EReal)) (x r : Fin 32 → Fin 4096 → Fin 512 → ℝ)
    (b : Fin 32) (k : Fin 4) :
    rowE (fun b n d => (x b n d : EReal)) (fun b n d => (r b n d : EReal)) b k
      = (((∑ j : Fin 1024, term e (x b (tileRow k j)) (r b (tileRow k j))) / 4096 : ℝ) : EReal) := by
  have h : ∀ j : Fin 1024,
      termE ((fun b n d => (x b n d : EReal)) b (tileRow k j)) ((fun b n d => (r b n d : EReal)) b (tileRow k j))
        = ((term e (x b (tileRow k j)) (r b (tileRow k j)) : ℝ) : EReal) :=
    fun j => termE_coe e he hε (x b (tileRow k j)) (r b (tileRow k j))
  unfold rowE
  simp only [h]
  rw [← coe_sum, w4096_eq, div_coe_coe _ _ (by norm_num)]

/-- A batch's column contribution on real entries: the 512 real column terms summed, over 512. -/
theorem colE_coe (e : ℝ) (he : 0 < e) (hε : epsW = (e : EReal)) (x r : Fin 32 → Fin 4096 → Fin 512 → ℝ)
    (b : Fin 32) :
    colE (fun b n d => (x b n d : EReal)) (fun b n d => (r b n d : EReal)) b
      = (((∑ d : Fin 512, term e (fun n : Fin 4096 => x b n d) (fun n : Fin 4096 => r b n d)) / 512 : ℝ) : EReal) := by
  have h : ∀ d : Fin 512,
      termE (fun n : Fin 4096 => (fun b n d => (x b n d : EReal)) b n d)
          (fun n : Fin 4096 => (fun b n d => (r b n d : EReal)) b n d)
        = ((term e (fun n : Fin 4096 => x b n d) (fun n : Fin 4096 => r b n d) : ℝ) : EReal) :=
    fun d => termE_coe e he hε (fun n : Fin 4096 => x b n d) (fun n : Fin 4096 => r b n d)
  unfold colE
  simp only [h]
  rw [← coe_sum, w512_eq, div_coe_coe _ _ (by norm_num)]

/-- With every entry real, the tiled accumulation denotes the loss: each tile's and each batch's
    contribution is a real number (the terms are real, the divisors 4096 and 512 nonzero), the four tiles
    of 1024 rows are the 4096 rows, and the scale is -1/32. -/
theorem kernelE_coe (e : ℝ) (he : 0 < e) (hε : epsW = (e : EReal)) (x r : Fin 32 → Fin 4096 → Fin 512 → ℝ) :
    kernelE (fun b n d => (x b n d : EReal)) (fun b n d => (r b n d : EReal)) = ((loss e x r : ℝ) : EReal) := by
  unfold kernelE
  simp only [rowE_coe e he hε, colE_coe e he hε, ← coe_sum, ← EReal.coe_add, wNeg32nd_eq, ← EReal.coe_mul]
  congr 1
  unfold loss
  rw [← Finset.sum_add_distrib]
  congr 1
  refine Finset.sum_congr rfl fun b _ => ?_
  rw [← Finset.sum_div, sum_tiles (fun n => term e (x b n) (r b n))]

end Cert.Spl

end
-- ==== Proof.SplMathR.lean ====
/-
  The plain program's result on real entries is the loss.
-/
import Mathlib.Order.MinMax
import Mathlib.Algebra.BigOperators.Field
import Mathlib.Algebra.Order.BigOperators.Group.Finset
import Mathlib.Tactic.Ring
import proofs.«173612_j10213432230325_1_alg».proof.Proof.SplWords

noncomputable section

namespace Cert.Spl

open Idealize.ShloMosaic

/-- The larger of two reals, on the extended reals, is the larger of their casts. -/
theorem coe_max_real (a b : ℝ) : max (a : EReal) (b : EReal) = ((max a b : ℝ) : EReal) :=
  (EReal.coe_strictMono.monotone.map_max (a := a) (b := b)).symm

/-- The sum of the squares of real entries, on the extended reals, is the real sum of squares. -/
theorem sumsq_coe {ι : Type} [Fintype ι] (u : ι → ℝ) :
    (∑ i, (u i : EReal) * (u i : EReal)) = ((∑ i, u i * u i : ℝ) : EReal) := by
  rw [coe_sum]
  exact Finset.sum_congr rfl (fun i _ => (EReal.coe_mul (u i) (u i)).symm)

/-- A sum of squares of reals is nonnegative. -/
theorem sumsq_nonneg {ι : Type} [Fintype ι] (u : ι → ℝ) : 0 ≤ ∑ i, u i * u i :=
  Finset.sum_nonneg (fun i _ => mul_self_nonneg (u i))

/-- A thresholded norm is positive. -/
theorem thr_pos (e : ℝ) (he : 0 < e) (s : ℝ) : 0 < max (Real.sqrt s) e :=
  lt_max_of_lt_right he

/-- A real entry over the thresholded norm of a nonnegative real, on the extended reals, is the real
    quotient: the norm is real and at least the positive threshold. -/
theorem entry_coe (e : ℝ) (he : 0 < e) (hε : epsW = (e : EReal)) (a s : ℝ) (hs : 0 ≤ s) :
    Ideal.div (a : EReal) (max (Ideal.sqrt (s : EReal)) epsW)
      = ((a / max (Real.sqrt s) e : ℝ) : EReal) := by
  rw [sqrt_coe_nonneg s hs, hε, coe_max_real, div_coe_coe _ _ (ne_of_gt (thr_pos e he s))]

/-- One half of the plain program's result on real entries and real nonnegative sums of squares, with a
    nonzero real divisor: every operation stays on the reals. -/
theorem halfE_coe (e : ℝ) (he : 0 < e) (hε : epsW = (e : EReal))
    (x r sx sr : Fin 32 → Fin 4096 → Fin 512 → ℝ)
    (hsx : ∀ b n d, 0 ≤ sx b n d) (hsr : ∀ b n d, 0 ≤ sr b n d) (W : ℝ) (hW : W ≠ 0) :
    halfE (fun b n d => (x b n d : EReal)) (fun b n d => (r b n d : EReal))
        (fun b n d => (sx b n d : EReal)) (fun b n d => (sr b n d : EReal)) (W : EReal)
      = (((-(∑ b : Fin 32,
            (∑ n : Fin 4096, ∑ d : Fin 512,
              (x b n d / max (Real.sqrt (sx b n d)) e) * (r b n d / max (Real.sqrt (sr b n d)) e)) / W * 1))
          / 32 : ℝ) : EReal) := by
  unfold halfE
  have hin : ∀ b : Fin 32,
      Ideal.div (∑ n : Fin 4096, ∑ d : Fin 512,
          Ideal.div ((x b n d : ℝ) : EReal) (max (Ideal.sqrt ((sx b n d : ℝ) : EReal)) epsW)
            * Ideal.div ((r b n d : ℝ) : EReal) (max (Ideal.sqrt ((sr b n d : ℝ) : EReal)) epsW))
        (W : EReal) * w1
      = (((∑ n : Fin 4096, ∑ d : Fin 512,
            (x b n d / max (Real.sqrt (sx b n d)) e) * (r b n d / max (Real.sqrt (sr b n d)) e)) / W * 1 : ℝ)
          : EReal) := by
    intro b
    have hs : (∑ n : Fin 4096, ∑ d : Fin 512,
          Ideal.div ((x b n d : ℝ) : EReal) (max (Ideal.sqrt ((sx b n d : ℝ) : EReal)) epsW)
            * Ideal.div ((r b n d : ℝ) : EReal) (max (Ideal.sqrt ((sr b n d : ℝ) : EReal)) epsW))
        = (((∑ n : Fin 4096, ∑ d : Fin 512,
            (x b n d / max (Real.sqrt (sx b n d)) e) * (r b n d / max (Real.sqrt (sr b n d)) e) : ℝ))
          : EReal) := by
      rw [coe_sum]
      refine Finset.sum_congr rfl (fun n _ => ?_)
      rw [coe_sum]
      refine Finset.sum_congr rfl (fun d _ => ?_)
      rw [entry_coe e he hε _ _ (hsx b n d), entry_coe e he hε _ _ (hsr b n d), EReal.coe_mul]
    rw [hs, div_coe_coe _ _ hW, w1_eq, ← EReal.coe_mul]
  have hsum : (∑ b : Fin 32,
      Ideal.div (∑ n : Fin 4096, ∑ d : Fin 512,
          Ideal.div ((x b n d : ℝ) : EReal) (max (Ideal.sqrt ((sx b n d : ℝ) : EReal)) epsW)
            * Ideal.div ((r b n d : ℝ) : EReal) (max (Ideal.sqrt ((sr b n d : ℝ) : EReal)) epsW))
        (W : EReal) * w1)
      = (((∑ b : Fin 32, (∑ n : Fin 4096, ∑ d : Fin 512,
            (x b n d / max (Real.sqrt (sx b n d)) e) * (r b n d / max (Real.sqrt (sr b n d)) e)) / W * 1 : ℝ))
          : EReal) := by
    rw [coe_sum]
    exact Finset.sum_congr rfl (fun b _ => hin b)
  rw [hsum, ← EReal.coe_neg, w32_eq, div_coe_coe _ _ (by norm_num : (32 : ℝ) ≠ 0)]

/-- Dividing each entry by a norm that does not depend on the summation index and multiplying: the sum is the
    sum of the products over the product of the norms. -/
theorem sum_div_mul_div {ι : Type} [Fintype ι] (u v : ι → ℝ) (p q : ℝ) :
    (∑ i, (u i / p) * (v i / q)) = (∑ i, u i * v i) / (p * q) := by
  rw [Finset.sum_div]
  exact Finset.sum_congr rfl (fun i _ => div_mul_div_comm (u i) p (v i) q)

/-- The two halves on the reals, each inner sum gathered into a term, add up to the loss. -/
theorem halves_eq_loss (e : ℝ) (x r : Fin 32 → Fin 4096 → Fin 512 → ℝ) :
    (-(∑ b : Fin 32,
          (∑ n : Fin 4096, ∑ d : Fin 512,
            (x b n d / max (Real.sqrt (∑ d' : Fin 512, x b n d' * x b n d')) e)
              * (r b n d / max (Real.sqrt (∑ d' : Fin 512, r b n d' * r b n d')) e)) / 4096 * 1)) / 32
      + (-(∑ b : Fin 32,
          (∑ n : Fin 4096, ∑ d : Fin 512,
            (x b n d / max (Real.sqrt (∑ n' : Fin 4096, x b n' d * x b n' d)) e)
              * (r b n d / max (Real.sqrt (∑ n' : Fin 4096, r b n' d * r b n' d)) e)) / 512 * 1)) / 32
      = loss e x r := by
  have hrow : ∀ b : Fin 32,
      (∑ n : Fin 4096, ∑ d : Fin 512,
            (x b n d / max (Real.sqrt (∑ d' : Fin 512, x b n d' * x b n d')) e)
              * (r b n d / max (Real.sqrt (∑ d' : Fin 512, r b n d' * r b n d')) e))
        = ∑ n : Fin 4096, term e (x b n) (r b n) := by
    intro b
    refine Finset.sum_congr rfl (fun n _ => ?_)
    rw [sum_div_mul_div]
    rfl
  have hcol : ∀ b : Fin 32,
      (∑ n : Fin 4096, ∑ d : Fin 512,
            (x b n d / max (Real.sqrt (∑ n' : Fin 4096, x b n' d * x b n' d)) e)
              * (r b n d / max (Real.sqrt (∑ n' : Fin 4096, r b n' d * r b n' d)) e))
        = ∑ d : Fin 512, term e (fun n : Fin 4096 => x b n d) (fun n : Fin 4096 => r b n d) := by
    intro b
    rw [Finset.sum_comm]
    refine Finset.sum_congr rfl (fun d _ => ?_)
    rw [sum_div_mul_div (fun n : Fin 4096 => x b n d) (fun n : Fin 4096 => r b n d)]
    rfl
  unfold loss
  simp only [hrow, hcol, mul_one]
  rw [Finset.sum_add_distrib]
  ring

/-- With every entry real, the plain program's two halves denote the loss: dividing each entry by its
    thresholded norm and multiplying is the product over the product of the norms, which leaves each inner
    sum; the two halves' scalings by -1/32 add up. -/
theorem refE_coe (e : ℝ) (he : 0 < e) (hε : epsW = (e : EReal)) (x r : Fin 32 → Fin 4096 → Fin 512 → ℝ) :
    refE (fun b n d => (x b n d : EReal)) (fun b n d => (r b n d : EReal)) = ((loss e x r : ℝ) : EReal) := by
  unfold refE
  have h1 : (fun (b : Fin 32) (n : Fin 4096) (_ : Fin 512) =>
        ∑ d' : Fin 512, ((x b n d' : ℝ) : EReal) * ((x b n d' : ℝ) : EReal))
      = (fun b n _ => ((∑ d' : Fin 512, x b n d' * x b n d' : ℝ) : EReal)) := by
    funext b n _; exact sumsq_coe (x b n)
  have h2 : (fun (b : Fin 32) (n : Fin 4096) (_ : Fin 512) =>
        ∑ d' : Fin 512, ((r b n d' : ℝ) : EReal) * ((r b n d' : ℝ) : EReal))
      = (fun b n _ => ((∑ d' : Fin 512, r b n d' * r b n d' : ℝ) : EReal)) := by
    funext b n _; exact sumsq_coe (r b n)
  have h3 : (fun (b : Fin 32) (_ : Fin 4096) (d : Fin 512) =>
        ∑ n' : Fin 4096, ((x b n' d : ℝ) : EReal) * ((x b n' d : ℝ) : EReal))
      = (fun b _ d => ((∑ n' : Fin 4096, x b n' d * x b n' d : ℝ) : EReal)) := by
    funext b _ d; exact sumsq_coe (fun n' : Fin 4096 => x b n' d)
  have h4 : (fun (b : Fin 32) (_ : Fin 4096) (d : Fin 512) =>
        ∑ n' : Fin 4096, ((r b n' d : ℝ) : EReal) * ((r b n' d : ℝ) : EReal))
      = (fun b _ d => ((∑ n' : Fin 4096, r b n' d * r b n' d : ℝ) : EReal)) := by
    funext b _ d; exact sumsq_coe (fun n' : Fin 4096 => r b n' d)
  rw [h1, h2, h3, h4, w4096_eq, w512_eq,
    halfE_coe e he hε x r (fun b n _ => ∑ d' : Fin 512, x b n d' * x b n d')
      (fun b n _ => ∑ d' : Fin 512, r b n d' * r b n d')
      (fun b n _ => sumsq_nonneg (x b n)) (fun b n _ => sumsq_nonneg (r b n)) 4096 (by norm_num),
    halfE_coe e he hε x r (fun b _ d => ∑ n' : Fin 4096, x b n' d * x b n' d)
      (fun b _ d => ∑ n' : Fin 4096, r b n' d * r b n' d)
      (fun b _ d => sumsq_nonneg (fun n' : Fin 4096 => x b n' d))
      (fun b _ d => sumsq_nonneg (fun n' : Fin 4096 => r b n' d)) 512 (by norm_num),
    ← EReal.coe_add, halves_eq_loss]

end Cert.Spl

end
-- ==== Proof.SplMath.lean ====
/-
  On arrays whose every entry is real the two programs' results are one extended real: both are the loss.
-/
import proofs.«173612_j10213432230325_1_alg».proof.Proof.SplMathK
import proofs.«173612_j10213432230325_1_alg».proof.Proof.SplMathR

noncomputable section

namespace Cert.Spl

open Idealize.ShloMosaic

theorem kernelE_eq_refE (x r : Fin 32 → Fin 4096 → Fin 512 → EReal)
    (hx : ∀ b n d, ∃ a : ℝ, x b n d = (a : EReal)) (hr : ∀ b n d, ∃ a : ℝ, r b n d = (a : EReal)) :
    kernelE x r = refE x r := by
  obtain ⟨e, he, hε⟩ := eps_real
  choose xr hxr using hx
  choose rr hrr using hr
  have ex : x = fun b n d => (xr b n d : EReal) := funext fun b => funext fun n => funext fun d => hxr b n d
  have er : r = fun b n d => (rr b n d : EReal) := funext fun b => funext fun n => funext fun d => hrr b n d
  rw [ex, er, kernelE_coe e he hε, refE_coe e he hε]

end Cert.Spl

end
-- ==== Proof.Finite.lean ====
/-
  The precondition says every entry of both argument arrays is a real number.
-/
import proofs.«173612_j10213432230325_1_alg».proof.Pre_finite_inputs
import proofs.«173612_j10213432230325_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Spl

open Idealize.ShloMosaic

/-- The result shape of a reduction over every axis has exactly one index. -/
instance subsingleton_scalar_idx : Subsingleton Cert.Pre_finite_inputs.S_.Idx :=
  ⟨fun a b => funext fun d => d.elim0⟩

/-- An extended real `x` with `|x| < +∞`, where `|x| = max x (-x)`, is a real number: at `x = ⊤` the maximum
    is `⊤`, at `x = ⊥` it is `-⊥ = ⊤`, and neither is below `⊤`. -/
theorem real_of_abs_lt_top (x : EReal) (h : max x (-x) < ⊤) : ∃ a : ℝ, x = (a : EReal) := by
  induction x using EReal.rec with
  | bot => simp at h
  | coe a => exact ⟨a, rfl⟩
  | top => simp at h

/-- One entry: the comparison `|x| < +∞` read back. The word `0x7F800000` is `+∞`, the comparison is the order's,
    and the absolute value is `max x (-x)`. -/
theorem real_of_cmp_one (x : Ideal .f32)
    (h : FloatOps.cmpf .olt (FloatOps.hostAbsf x) (FloatOps.ofBits (F := Ideal) .f32 0x7F800000#32) = 1#1) :
    ∃ a : ℝ, x = (a : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  refine real_of_abs_lt_top x ?_
  by_contra hn
  simp [Ideal.cmp, hn] at h

/-- One array: if the conjunction over all entries `x` of `|x| < +∞` is true, every entry is a real number. -/
theorem real_of_all (X : FVec Ideal Cert.Pre_finite_inputs.S32x4096x512 .f32)
    (h : Host.reduce IntOp.andi
        (cmpf .olt (Host.absf X)
          (broadcastInDim Cert.Pre_finite_inputs.S32x4096x512 ![] Cert.Pre_finite_inputs.Facts.bcast_S_S32x4096x512
            (constant (F := Ideal) Cert.Pre_finite_inputs.S_ .f32 0x7F800000#32)))
        (constantI Cert.Pre_finite_inputs.S_ 1 1#1)
        Cert.Pre_finite_inputs.Facts.reducesTo_S32x4096x512_S_d0_1_2 Cert.Pre_finite_inputs.Facts.h_S_ ValueIdx.ix0 = 1#1) :
    ∀ i, ∃ a : ℝ, X i = (a : EReal) := by
  intro i
  have hi := Host.reduce_andi_all _ _ _ _ _ h i
  exact real_of_cmp_one (X i) hi

/-- The precondition is the conjunction, over every entry `a` of both arrays, of `|a| < +∞`; on the extended
    reals that holds exactly of the entries that are neither infinity, which are the real numbers. -/
theorem real_of_fn (X R : FVec Ideal Cert.Pre_finite_inputs.S32x4096x512 .f32)
    (h : Cert.Pre_finite_inputs.fn (F := Ideal) X R = fun _ => 1#1) :
    (∀ i, ∃ a : ℝ, X i = (a : EReal)) ∧ (∀ i, ∃ a : ℝ, R i = (a : EReal)) := by
  have h0 := congrFun h ValueIdx.ix0
  dsimp only [Cert.Pre_finite_inputs.fn] at h0
  obtain ⟨hX, hR⟩ := IntOp.andi_eq_one.1 h0
  exact ⟨real_of_all X hX, real_of_all R hR⟩

end Cert.Spl

end
-- ==== Proof.lean ====
/-
  A loss over two arrays x, r of 32 batches of 4096 rows of 512 entries. For two vectors u, v the term is
  (∑ u·v) / (max (√∑ u²) ε · max (√∑ v²) ε), ε the float nearest 1e-12. The loss is
    -(1/32) · ∑_b ( (∑ over the 4096 rows n of term (x b n) (r b n)) / 4096
                   + (∑ over the 512 columns d of term (x b · d) (r b · d)) / 512 ).

  The tiled program walks the 32 · 4 tiles of 1024 rows in order. Each tile adds its 1024 row terms over 4096
  to one running total and its column sums of x², r², x·r to three accumulators of 512 entries, reset at a
  batch's first tile; a batch's last tile also adds the 512 column terms, formed from the accumulators, over
  512. The total is written back once, after the last tile, and scaled by -1/32 (`kernelE`). The plain
  program divides every entry by its thresholded row norm (column norm), multiplies and sums per batch,
  divides by 4096 (by 512), sums the batches, negates, divides by 32, and adds the two halves (`refE`).

  When every entry is a real number, which the precondition says, nothing leaves the reals: sums of squares are
  nonnegative, the thresholded norms are at least ε > 0, the divisors are nonzero. Then (a/p)·(c/q) = (a·c)/(p·q)
  takes the norms out of the inner sums, the four tiles of 1024 rows are the 4096 rows, and both programs
  denote the loss above. On the extended reals with an infinite entry the two need not agree, which is why the
  precondition is used.
-/
import proofs.«173612_j10213432230325_1_alg».proof.Defs
import proofs.«173612_j10213432230325_1_alg».proof.Proof.Gen.Kernel
import proofs.«173612_j10213432230325_1_alg».proof.Proof.Gen.Kernel.Frame
import proofs.«173612_j10213432230325_1_alg».proof.Proof.Gen.KernelIdeal
import proofs.«173612_j10213432230325_1_alg».proof.Proof.Gen.KernelIdeal.Frame
import proofs.«173612_j10213432230325_1_alg».proof.Proof.Gen.ReferenceIdeal
import proofs.«173612_j10213432230325_1_alg».proof.Proof.Gen.ReferenceIdeal.Run
import proofs.«173612_j10213432230325_1_alg».proof.Proof.Gen.Pre_finite_inputs
import proofs.«173612_j10213432230325_1_alg».proof.Proof.KValue
import proofs.«173612_j10213432230325_1_alg».proof.Proof.RefValue
import proofs.«173612_j10213432230325_1_alg».proof.Proof.SplMath
import proofs.«173612_j10213432230325_1_alg».proof.Proof.Finite
import Idealize.ShloMosaic.Adequacy
import Idealize.ShloMosaic.Init

noncomputable section

namespace Cert.Proof

open Idealize.ShloMosaic Idealize.SL.Sem

/-- The tiled program at the word level runs and leaves its arguments unchanged. -/
theorem frame_k : Cert.frame_Kernel := fun m ρ _ => Cert.Kernel.Gen.frame m ρ

/-- So does the tiled program at the extended reals. -/
theorem frame_ki : Cert.frame_KernelIdeal := fun m ρ _ => Cert.KernelIdeal.Gen.frame m ρ

/-- The plain program has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the tiled program was rewritten when it was read at the extended reals. -/
theorem preserves : Cert.preserves_Kernel_KernelIdeal := trivial

/-- From memories agreeing on the arguments both programs end at the loss: the tiled one at `kernelE`, the
    plain one at `refE` of the same arrays, whose every entry the precondition makes a real number. -/
theorem algebraic : Cert.algebraic_KernelIdeal_ReferenceIdeal := by
  intro m ρ m' ρ' hpre hagree
  refine ⟨fun c => fun _ => Cert.Spl.kernelE
      (Cert.Spl.cur (m ((c.tc : Thread Cert.KernelIdeal.nD Cert.KernelIdeal.τ).loc Cert.KernelIdeal.main_arg0)))
      (Cert.Spl.cur (m ((c.tc : Thread Cert.KernelIdeal.nD Cert.KernelIdeal.τ).loc Cert.KernelIdeal.main_arg1))),
    Cert.KernelIdeal.SplK.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  obtain ⟨hx, hr⟩ := Cert.Spl.real_of_fn _ _ (hpre c)
  funext _
  exact (Cert.Spl.kernelE_eq_refE _ _ (fun b n d => hx (ValueIdx.ix3 b n d)) (fun b n d => hr (ValueIdx.ix3 b n d))).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
